-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S256x8x8 : Shape := ⟨3, ![256, 8, 8]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel
  bcast_S_S256x8x8 : S_.BroadcastsInDim S256x8x8 (![] : Fin 0 → Fin S256x8x8.rank)
  reducesTo_S256x8x8_S_d0_1_2 : S256x8x8.ReducesTo [0, 1, 2] S_

variable [Facts]

def fn {F : FTy → Type} [FloatOps F] (main_arg0 : FVec F S64x1x512x512 .f32) (main_arg1 : FVec F S256x8x8 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S256x8x8 .f32 := Host.absf main_arg1
  let main_cst_0 : FVec F S_ .f32 := constant S_ .f32 0x7F800000#32
  let main_v5 : FVec F S256x8x8 .f32 := broadcastInDim S256x8x8 ![] bcast_S_S256x8x8 main_cst_0
  let main_v6 : IVec S256x8x8 1 := cmpf .olt main_v4 main_v5
  let main_c_1 : IVec S_ 1 := constantI S_ 1 1#1
  let main_v7 : IVec S_ 1 := (fun x v => Host.reduce IntOp.andi x v reducesTo_S256x8x8_S_d0_1_2 h_S_) main_v6 main_c_1
  let main_v8 : IVec S_ 1 := andi main_v3 main_v7
  main_v8
-- ==== Kernel.lean ====
abbrev S64x1x512x512 : Shape := ⟨4, ![64, 1, 512, 512]⟩
abbrev S256x8x8 : Shape := ⟨3, ![256, 8, 8]⟩
abbrev S64x1x64x8x64x8 : Shape := ⟨6, ![64, 1, 64, 8, 64, 8]⟩
abbrev S64x64x64x1x8x8 : Shape := ⟨6, ![64, 64, 64, 1, 8, 8]⟩
abbrev S64x4096x64 : Shape := ⟨3, ![64, 4096, 64]⟩
abbrev S262144x64 : Shape := ⟨2, ![262144, 64]⟩
abbrev S256x64 : Shape := ⟨2, ![256, 64]⟩
abbrev S256x8x128 : Shape := ⟨3, ![256, 8, 128]⟩
abbrev S1024x64 : Shape := ⟨2, ![1024, 64]⟩
abbrev S1x8x128 : Shape := ⟨3, ![1, 8, 128]⟩
abbrev S1024 : Shape := ⟨1, ![1024]⟩
abbrev S1024x1 : Shape := ⟨2, ![1024, 1]⟩
abbrev S256 : Shape := ⟨1, ![256]⟩
abbrev S1x256 : Shape := ⟨2, ![1, 256]⟩
abbrev S64x256 : Shape := ⟨2, ![64, 256]⟩
abbrev S1024x256 : Shape := ⟨2, ![1024, 256]⟩
abbrev S1 : Shape := ⟨1, ![1]⟩
abbrev S1x1 : Shape := ⟨2, ![1, 1]⟩
abbrev S1x1x1 : Shape := ⟨3, ![1, 1, 1]⟩
abbrev S256x1x1 : Shape := ⟨3, ![256, 1, 1]⟩
abbrev S_ : Shape := ⟨0, ![]⟩

abbrev nBuf : Space → Nat
  | .hbm => 19
  | .vmem => 7
  | .smem => 0
  | _ => 0

abbrev bufTy : (tb : Table) → Fin (tcTables nBuf tb) → BufTy
  | .hbm, ⟨0, _⟩ => ⟨S64x1x512x512, .f32⟩
  | .hbm, ⟨1, _⟩ => ⟨S256x8x8, .f32⟩
  | .hbm, ⟨2, _⟩ => ⟨S64x1x64x8x64x8, .f32⟩
  | .hbm, ⟨3, _⟩ => ⟨S64x64x64x1x8x8, .f32⟩
  | .hbm, ⟨4, _⟩ => ⟨S64x4096x64, .f32⟩
  | .hbm, ⟨5, _⟩ => ⟨S262144x64, .f32⟩
  | .hbm, ⟨6, _⟩ => ⟨S256x64, .f32⟩
  | .hbm, ⟨7, _⟩ => ⟨S262144x64, .f32⟩
  | .hbm, ⟨8, _⟩ => ⟨S256x8x128, .f32⟩
  | .hbm, ⟨9, _⟩ => ⟨S64x4096x64, .f32⟩
  | .hbm, ⟨10, _⟩ => ⟨S64x64x64x1x8x8, .f32⟩
  | .hbm, ⟨11, _⟩ => ⟨S64x1x64x8x64x8, .f32⟩
  | .hbm, ⟨12, _⟩ => ⟨S64x1x512x512, .f32⟩
  | .hbm, ⟨13, _⟩ => ⟨S256x1x1, .f32⟩
  | .hbm, ⟨14, _⟩ => ⟨S256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S256x64, .f32⟩
  | .local _ .vmem, ⟨3, _⟩ => ⟨S1024x64, .f32⟩
  | .local _ .vmem, ⟨4, _⟩ => ⟨S1024x64, .f32⟩
  | .local _ .vmem, ⟨5, _⟩ => ⟨S1x8x128, .f32⟩
  | .local _ .vmem, ⟨6, _⟩ => ⟨S1x8x128, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x1x512x512_S64x1x64x8x64x8 : S64x1x512x512.ShapeCasts S64x1x64x8x64x8
  transposes_S64x1x64x8x64x8_S64x64x64x1x8x8_0_2_4_1_3_5 : S64x1x64x8x64x8.Transposes [0, 2, 4, 1, 3, 5] S64x64x64x1x8x8
  shapeCasts_S64x64x64x1x8x8_S64x4096x64 : S64x64x64x1x8x8.ShapeCasts S64x4096x64
  shapeCasts_S64x4096x64_S262144x64 : S64x4096x64.ShapeCasts S262144x64
  shapeCasts_S256x8x8_S256x64 : S256x8x8.ShapeCasts S256x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  reduces_S1024x64_S1024 : S1024x64.Reduces [1] S1024
  shapeCasts_S1024_S1024x1 : S1024.ShapeCasts S1024x1
  reduces_S256x64_S256 : S256x64.Reduces [1] S256
  shapeCasts_S256_S1x256 : S256.ShapeCasts S1x256
  transposes_S256x64_p1_0_S64x256 : S256x64.Transposes [1, 0] S64x256
  broadcasts_S1024x1_S1024x256 : S1024x1.Broadcasts S1024x256
  broadcasts_S1x256_S1024x256 : S1x256.Broadcasts S1024x256
  reduces_S1024x256_S1024 : S1024x256.Reduces [1] S1024
  bitsLt_bf16_f32 : FTy.bits .bf16 < FTy.bits .f32
  reduces_S1024x1_S1 : S1024x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  shapeCasts_S262144x64_S64x4096x64 : S262144x64.ShapeCasts S64x4096x64
  shapeCasts_S64x4096x64_S64x64x64x1x8x8 : S64x4096x64.ShapeCasts S64x64x64x1x8x8
  transposes_S64x64x64x1x8x8_S64x1x64x8x64x8_0_3_1_4_2_5 : S64x64x64x1x8x8.Transposes [0, 3, 1, 4, 2, 5] S64x1x64x8x64x8
  shapeCasts_S64x1x64x8x64x8_S64x1x512x512 : S64x1x64x8x64x8.ShapeCasts S64x1x512x512
  slices_S256x8x128_S256x1x1_0_0_0 : S256x8x128.Slices ![0, 0, 0] S256x1x1
  shapeCasts_S256x1x1_S256 : S256x1x1.ShapeCasts S256
  reducesTo_S256_S_d0 : S256.ReducesTo [0] S_
  h_S_ : 0 < S_.numel
  dot_S1024x64_S64x256_S1024x256_1_0_0_1_n_n_wf : DotDims.WF S1024x64 S64x256 S1024x256 [1] [0] [0] [1] [] []
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S262144x64.size a
  hwx0_0 : ∀ i : grid0.Coords, EltTy.bits .f32 = 32 ∨ (Rect.block (s := S262144x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S262144x64.size a
  hwx0_2 : ∀ i : grid0.Coords, EltTy.bits .f32 = 32 ∨ (Rect.block (s := S262144x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S256x8x128.size a
  hwx0_3 : ∀ i : grid0.Coords, EltTy.bits .f32 = 32 ∨ (Rect.block (s := S256x8x128) S1x8x128.size (cc0_transform_3 i) (hinb0_3 i)).WholeWords (EltTy.packing .f32)

variable [Facts₀]

def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_v3) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1x512x512 : Shape := ⟨4, ![64, 1, 512, 512]⟩
abbrev S256x8x8 : Shape := ⟨3, ![256, 8, 8]⟩
abbrev S64x1x64x8x64x8 : Shape := ⟨6, ![64, 1, 64, 8, 64, 8]⟩
abbrev S64x64x64x1x8x8 : Shape := ⟨6, ![64, 64, 64, 1, 8, 8]⟩
abbrev S64x4096x64 : Shape := ⟨3, ![64, 4096, 64]⟩
abbrev S262144x64 : Shape := ⟨2, ![262144, 64]⟩
abbrev S256x64 : Shape := ⟨2, ![256, 64]⟩
abbrev S_ : Shape := ⟨0, ![]⟩
abbrev S262144 : Shape := ⟨1, ![262144]⟩
abbrev S262144x1 : Shape := ⟨2, ![262144, 1]⟩
abbrev S256 : Shape := ⟨1, ![256]⟩
abbrev S64x256 : Shape := ⟨2, ![64, 256]⟩
abbrev S262144x256 : Shape := ⟨2, ![262144, 256]⟩
abbrev S1x256 : Shape := ⟨2, ![1, 256]⟩

abbrev nBuf : Space → Nat
  | .hbm => 56
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S256x8x8, .f32⟩
  | .hbm, ⟨2, _⟩ => ⟨S64x1x64x8x64x8, .f32⟩
  | .hbm, ⟨3, _⟩ => ⟨S64x64x64x1x8x8, .f32⟩
  | .hbm, ⟨4, _⟩ => ⟨S64x4096x64, .f32⟩
  | .hbm, ⟨5, _⟩ => ⟨S262144x64, .f32⟩
  | .hbm, ⟨6, _⟩ => ⟨S256x64, .f32⟩
  | .hbm, ⟨7, _⟩ => ⟨S262144x64, .f32⟩
  | .hbm, ⟨8, _⟩ => ⟨S_, .f32⟩
  | .hbm, ⟨9, _⟩ => ⟨S262144, .f32⟩
  | .hbm, ⟨10, _⟩ => ⟨S262144x1, .f32⟩
  | .hbm, ⟨11, _⟩ => ⟨S256x64, .f32⟩
  | .hbm, ⟨12, _⟩ => ⟨S_, .f32⟩
  | .hbm, ⟨13, _⟩ => ⟨S256, .f32⟩
  | .hbm, ⟨14, _⟩ => ⟨S64x256, .f32⟩
  | .hbm, ⟨15, _⟩ => ⟨S262144x256, .f32⟩
  | .hbm, ⟨16, _⟩ => ⟨S_, .f32⟩
  | .hbm, ⟨17, _⟩ => ⟨S262144x256, .f32⟩
  | .hbm, ⟨18, _⟩ => ⟨S262144x256, .f32⟩
  | .hbm, ⟨19, _⟩ => ⟨S262144x256, .f32⟩
  | .hbm, ⟨20, _⟩ => ⟨S262144x256, .f32⟩
  | .hbm, ⟨21, _⟩ => ⟨S1x256, .f32⟩
  | .hbm, ⟨22, _⟩ => ⟨S262144x256, .f32⟩
  | .hbm, ⟨23, _⟩ => ⟨S262144x256, .f32⟩
  | .hbm, ⟨24, _⟩ => ⟨S_, .f32⟩
  | .hbm, ⟨25, _⟩ => ⟨S262144x256, .f32⟩
  | .hbm, ⟨26, _⟩ => ⟨S262144x256, .f32⟩
  | .hbm, ⟨27, _⟩ => ⟨S_, .f32⟩
  | .hbm, ⟨28, _⟩ => ⟨S262144, .f32⟩
  | .hbm, ⟨29, _⟩ => ⟨S_, .f32⟩
  | .hbm, ⟨30, _⟩ => ⟨S262144, .f32⟩
  | .hbm, ⟨31, _⟩ => ⟨S262144, .f32⟩
  | .hbm, ⟨32, _⟩ => ⟨S262144x1, .f32⟩
  | .hbm, ⟨33, _⟩ => ⟨S262144x256, .f32⟩
  | .hbm, ⟨34, _⟩ => ⟨S262144x256, .f32⟩
  | .hbm, ⟨35, _⟩ => ⟨S262144x256, .f32⟩
  | .hbm, ⟨36, _⟩ => ⟨S_, .f32⟩
  | .hbm, ⟨37, _⟩ => ⟨S262144, .f32⟩
  | .hbm, ⟨38, _⟩ => ⟨S262144x1, .f32⟩
  | .hbm, ⟨39, _⟩ => ⟨S262144x256, .f32⟩
  | .hbm, ⟨40, _⟩ => ⟨S262144x256, .f32⟩
  | .hbm, ⟨41, _⟩ => ⟨S262144x64, .f32⟩
  | .hbm, ⟨42, _⟩ => ⟨S64x4096x64, .f32⟩
  | .hbm, ⟨43, _⟩ => ⟨S64x64x64x1x8x8, .f32⟩
  | .hbm, ⟨44, _⟩ => ⟨S64x1x64x8x64x8, .f32⟩
  | .hbm, ⟨45, _⟩ => ⟨S64x1x512x512, .f32⟩
  | .hbm, ⟨46, _⟩ => ⟨S_, .f32⟩
  | .hbm, ⟨47, _⟩ => ⟨S262144x256, .f32⟩
  | .hbm, ⟨48, _⟩ => ⟨S262144x256, .f32⟩
  | .hbm, ⟨49, _⟩ => ⟨S262144x256, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_7 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_cst_9 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  shapeCasts_S64x1x512x512_S64x1x64x8x64x8 : S64x1x512x512.ShapeCasts S64x1x64x8x64x8
  transposes_S64x1x64x8x64x8_S64x64x64x1x8x8_0_2_4_1_3_5 : S64x1x64x8x64x8.Transposes [0, 2, 4, 1, 3, 5] S64x64x64x1x8x8
  shapeCasts_S64x64x64x1x8x8_S64x4096x64 : S64x64x64x1x8x8.ShapeCasts S64x4096x64
  shapeCasts_S64x4096x64_S262144x64 : S64x4096x64.ShapeCasts S262144x64
  shapeCasts_S256x8x8_S256x64 : S256x8x8.ShapeCasts S256x64
  reducesTo_S262144x64_S262144_d1 : S262144x64.ReducesTo [1] S262144
  h_S_ : 0 < S_.numel
  bcast_S262144_S262144x1_0 : S262144.BroadcastsInDim S262144x1 (![0] : Fin 1 → Fin S262144x1.rank)
  reducesTo_S256x64_S256_d1 : S256x64.ReducesTo [1] S256
  transposes_S256x64_S64x256_1_0 : S256x64.Transposes [1, 0] S64x256
  bcast_S_S262144x256 : S_.BroadcastsInDim S262144x256 (![] : Fin 0 → Fin S262144x256.rank)
  bcast_S262144x1_S262144x256_0_1 : S262144x1.BroadcastsInDim S262144x256 (![0, 1] : Fin 2 → Fin S262144x256.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  reducesTo_S262144x256_S262144_d1 : S262144x256.ReducesTo [1] S262144
  bcast_S_S262144 : S_.BroadcastsInDim S262144 (![] : Fin 0 → Fin S262144.rank)
  shapeCasts_S262144x64_S64x4096x64 : S262144x64.ShapeCasts S64x4096x64
  shapeCasts_S64x4096x64_S64x64x64x1x8x8 : S64x4096x64.ShapeCasts S64x64x64x1x8x8
  transposes_S64x64x64x1x8x8_S64x1x64x8x64x8_0_3_1_4_2_5 : S64x64x64x1x8x8.Transposes [0, 3, 1, 4, 2, 5] S64x1x64x8x64x8
  shapeCasts_S64x1x64x8x64x8_S64x1x512x512 : S64x1x64x8x64x8.ShapeCasts S64x1x512x512
  reducesTo_S262144x256_S_d0_1 : S262144x256.ReducesTo [0, 1] S_
  dot_S262144x64_S64x256_S262144x256_1_0_0_1_n_n_wf : DotDims.WF S262144x64 S64x256 S262144x256 [1] [0] [0] [1] [] []
  dot_S262144x256_S256x64_S262144x64_1_0_0_1_n_n_wf : DotDims.WF S262144x256 S256x64 S262144x64 [1] [0] [0] [1] [] []

variable [Facts₀]

def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf
def dot_S262144x256_S256x64_S262144x64_1_0_0_1_n_n : DotDims S262144x256 S256x64 S262144x64 where
  lhsContracting := [1]
  rhsContracting := [0]
  lhsNonContracting := [0]
  rhsNonContracting := [1]
  lhsBatch := []
  rhsBatch := []
  wf := dot_S262144x256_S256x64_S262144x64_1_0_0_1_n_n_wf

class Facts : Prop extends Facts₀ where

variable [Facts]
-- ==== Proof.Spec.lean ====
/-
  The mathematics both programs compute, row by row, on the extended reals.

  A patch row `x` (64 entries) is compared with each of the 256 code rows `c k`: the squared distance in its
  expanded form `|x|² - 2·⟨x, c k⟩ + |c k|²`, scaled by -35, is a logit; the logits' softmax over `k` (the
  row maximum subtracted first) gives the weights `wgt x c k`; the reconstruction of the row is the weighted
  sum of the code rows, `recon x c l = Σ k, wgt x c k · c k l`; and the row's penalty is
  `pen x c = Σ k, min (wgt x c k) (1 - wgt x c k)`. The float literals stay as their words: the same word
  stands on both sides of every equation and is never evaluated.
-/
import Idealize.ShloMosaic.PureOps.Ideal
import Idealize.ShloMosaic.Lib.ValueIdx

open scoped BigOperators

noncomputable section

namespace Cert.VQ

open Idealize.ShloMosaic Idealize.ShloMosaic.ValueIdx

/-- Row `r` of an `[n, 64]` matrix. -/
def row {n : ℕ} (X : (⟨2, ![n, 64]⟩ : Shape).Idx → EReal) (r : Fin n) : Fin 64 → EReal := fun l => X (ix2 r l)

/-- An `[256, 64]` matrix as its rows. -/
def mat (C : (⟨2, ![256, 64]⟩ : Shape).Idx → EReal) : Fin 256 → Fin 64 → EReal := fun k l => C (ix2 k l)

/-- The squared norm of a row. -/
def sqn (x : Fin 64 → EReal) : EReal := ∑ l, x l * x l

/-- The inner product of two rows. -/
def inner (x y : Fin 64 → EReal) : EReal := ∑ l, x l * y l

/-- The logit of code `k` for the row `x`: -35 times the expanded squared distance. -/
def logit (x : Fin 64 → EReal) (c : Fin 256 → Fin 64 → EReal) (k : Fin 256) : EReal :=
  (Ideal.ofBits .f32 0xC20C0000#32 : EReal)
    * ((sqn x - (Ideal.ofBits .f32 0x40000000#32 : EReal) * inner x (c k)) + sqn (c k))

/-- The largest logit of the row (a maximum taken from -∞, twice). -/
def rowMax (x : Fin 64 → EReal) (c : Fin 256 → Fin 64 → EReal) : EReal :=
  max (Ideal.ofBits .f32 0xFF800000#32 : EReal)
    ((Finset.univ : Finset (Fin 256)).fold max (Ideal.ofBits .f32 0xFF800000#32 : EReal) (logit x c))

/-- The shifted exponential of a logit. -/
def ex (x : Fin 64 → EReal) (c : Fin 256 → Fin 64 → EReal) (k : Fin 256) : EReal :=
  Ideal.exp (logit x c k - rowMax x c)

/-- The softmax weight of code `k` for the row `x`. -/
def wgt (x : Fin 64 → EReal) (c : Fin 256 → Fin 64 → EReal) (k : Fin 256) : EReal :=
  Ideal.div (ex x c k) (∑ k', ex x c k')

/-- The reconstructed row: the weighted sum of the code rows. -/
def recon (x : Fin 64 → EReal) (c : Fin 256 → Fin 64 → EReal) (l : Fin 64) : EReal :=
  ∑ k, wgt x c k * c k l

/-- The row's penalty. -/
def pen (x : Fin 64 → EReal) (c : Fin 256 → Fin 64 → EReal) : EReal :=
  ∑ k, min (wgt x c k) ((Ideal.ofBits .f32 0x3F800000#32 : EReal) - wgt x c k)

end Cert.VQ

end
-- ==== Proof.Layout.lean ====
/-
  The layout chains the two programs share, each as one function (general in the float instance).

  `unfoldImg` cuts a batch of 64 one-channel 512×512 images into 8×8 tiles, one tile a row of 64 entries:
  [64,1,512,512] → [64,1,64,8,64,8] → (tile axes first) [64,64,64,1,8,8] → [64,4096,64] → [262144,64].
  `foldImg` is the way back. `penTail` reads entry (t,0,0) of each of the 256 per-block [8,128] tiles, sums the
  256 entries from zero and divides by 262144. Both programs apply exactly these chains; the proofs carry them as
  one function and never open them, except that `penTail` is read once, at the ideal values, as the plain sum
  divided by the literal.
-/
import Idealize.ShloMosaic.PureOps
import Idealize.ShloMosaic.PureOps.Ideal.Laws
import Idealize.ShloMosaic.Lib.Pipeline.Value
import Idealize.ShloMosaic.Lib.ValueIdx

open scoped BigOperators

noncomputable section

namespace Cert.VQ

open Idealize.ShloMosaic Idealize.ShloMosaic.ValueIdx

variable {F : FTy → Type} [FloatOps F]

abbrev SImg : Shape := ⟨4, ![64, 1, 512, 512]⟩
abbrev SSplit : Shape := ⟨6, ![64, 1, 64, 8, 64, 8]⟩
abbrev STiles : Shape := ⟨6, ![64, 64, 64, 1, 8, 8]⟩
abbrev SBTL : Shape := ⟨3, ![64, 4096, 64]⟩
abbrev SNL : Shape := ⟨2, ![262144, 64]⟩
abbrev SPen : Shape := ⟨3, ![256, 8, 128]⟩
abbrev SPen1 : Shape := ⟨3, ![256, 1, 1]⟩
abbrev SVec : Shape := ⟨1, ![256]⟩
abbrev SNil : Shape := ⟨0, ![]⟩

/-- Images to tile rows. -/
def unfoldImg (h1 : SImg.ShapeCasts SSplit) (h2 : SSplit.Transposes [0, 2, 4, 1, 3, 5] STiles) (h3 : STiles.ShapeCasts SBTL)
    (h4 : SBTL.ShapeCasts SNL) (X : FVec F SImg .f32) : FVec F SNL .f32 :=
  shapeCast SNL (shapeCast SBTL (transpose STiles [0, 2, 4, 1, 3, 5] (shapeCast SSplit X h1) h2) h3) h4

/-- Tile rows back to images. -/
def foldImg (h1 : SNL.ShapeCasts SBTL) (h2 : SBTL.ShapeCasts STiles) (h3 : STiles.Transposes [0, 3, 1, 4, 2, 5] SSplit)
    (h4 : SSplit.ShapeCasts SImg) (Y : FVec F SNL .f32) : FVec F SImg .f32 :=
  shapeCast SImg (transpose SSplit [0, 3, 1, 4, 2, 5] (shapeCast STiles (shapeCast SBTL Y h1) h2) h3) h4

/-- The per-block totals (one per [8,128] tile, read at its first entry) summed from zero and divided by 262144. -/
def penTail (h1 : SPen.Slices ![0, 0, 0] SPen1) (h2 : SPen1.ShapeCasts SVec) (h3 : SVec.ReducesTo [0] SNil) (h4 : 0 < SNil.numel)
    (A : FVec F SPen .f32) : FVec F SNil .f32 :=
  Host.divf (Host.reduceAdd (shapeCast SVec (extractStridedSlice SPen1 ![0, 0, 0] A h1) h2) (constant SNil .f32 0x00000000#32) h3 h4)
    (constant SNil .f32 0x48800000#32)

end Cert.VQ

end
-- ==== Proof.LibBlockSum.lean ====
/-
  A finite sum taken block by block.

  `N = a * b` positions are cut into `a` consecutive blocks of `b` positions each: position `q` of block `t` is
  position `t * b + q` (`blockRow`). In any commutative additive monoid the sum of a function over all `N` positions is
  the sum, over the blocks, of its sums over each block's positions (`sum_fin_blocks`): the bijection
  `Fin a × Fin b ≃ Fin (a * b)`, `(t, q) ↦ q + b * t`. Applied twice it cuts the rows of a row-major matrix into row
  blocks and each row into its entries. Nothing is asked of the summands: on the extended reals, whose addition is
  commutative and associative at the infinities too, this re-groups a sum of any values. Generic in the sizes and in the
  monoid. Last, a reshape re-arranges a vector's entries bijectively, so it does not change their sum (`sum_shapeCast`).
-/
import Idealize.ShloMosaic.Lib.ValueIdx
import Mathlib.Algebra.BigOperators.Fin
import Mathlib.Logic.Equiv.Fin.Basic

open scoped BigOperators

namespace Cert.Lib.BlockSum

open Idealize.ShloMosaic Idealize.ShloMosaic.ValueIdx

/-- Row `q` of row block `t`, among the `N = a * b` rows: row `t * b + q`. -/
def blockRow {N a b : ℕ} (hN : N = a * b) (t : Fin a) (q : Fin b) : Fin N :=
  ⟨t.val * b + q.val, by
    subst hN
    calc t.val * b + q.val < t.val * b + b := Nat.add_lt_add_left q.isLt _
      _ = (t.val + 1) * b := (Nat.succ_mul _ _).symm
      _ ≤ a * b := Nat.mul_le_mul_right _ t.isLt⟩

@[simp] theorem blockRow_val {N a b : ℕ} (hN : N = a * b) (t : Fin a) (q : Fin b) :
    (blockRow hN t q).val = t.val * b + q.val := rfl

/-- A sum over `a * b` positions is the sum over the `a` blocks of the sums over each block's `b` positions. -/
theorem sum_fin_blocks {M : Type*} [AddCommMonoid M] {N a b : ℕ} (hN : N = a * b) (f : Fin N → M) :
    ∑ r, f r = ∑ t : Fin a, ∑ q : Fin b, f (blockRow hN t q) := by
  subst hN
  rw [← Equiv.sum_comp finProdFinEquiv f, Fintype.sum_prod_type]
  refine Finset.sum_congr rfl fun t _ => Finset.sum_congr rfl fun q _ => congrArg f (Fin.ext ?_)
  show q.val + b * t.val = t.val * b + q.val
  rw [Nat.mul_comm, Nat.add_comm]

/-- A reshape only re-arranges: the sum over a reshaped vector's entries is the sum over the vector's entries (each entry of
    the result is the operand's entry at the same row-major position, a bijection of the two index sets). -/
theorem sum_shapeCast {M : Type} [AddCommMonoid M] {s t : Shape} (x : s.Idx → M) (h : s.ShapeCasts t) :
    ∑ j, shapeCast t x h j = ∑ k, x k := by
  unfold shapeCast
  exact Equiv.sum_comp (Shape.reshapeEquiv h) x

end Cert.Lib.BlockSum
-- ==== Proof.Arith.lean ====
/-
  The arithmetic that joins the two penalty results, and the tail of the kernel's penalty read at the ideal values.

  The kernel divides the total penalty by 262144 = 2¹⁸; the reference divides it by 2²⁶ and multiplies by 256 = 2⁸.
  On the extended reals a quotient by a nonzero real is the product with its reciprocal, and products associate, so
  the two agree for every total, finite or not. The kernel's total is a sum over 256 blocks of 1024 rows each, the
  reference's a sum over all 262144 rows: the same sum, regrouped.
-/
import proofs.«134466_j37005438222627_1_alg».proof.Proof.Spec
import proofs.«134466_j37005438222627_1_alg».proof.Proof.Layout
import proofs.«134466_j37005438222627_1_alg».proof.Proof.LibBlockSum
import Idealize.ShloMosaic.PureOps.Ideal.Laws
import Idealize.ShloMosaic.Lib.Pipeline.Value
import Idealize.ShloMosaic.Lib.ValueIdx

open scoped BigOperators

noncomputable section

namespace Cert.VQ

open Idealize.ShloMosaic Idealize.ShloMosaic.ValueIdx

/-- The word 0x4C800000 is 2²⁶. -/
theorem ofBits_2p26 : Ideal.ofBits .f32 0x4C800000#32 = ((67108864 : ℝ) : EReal) := by
  simp [Ideal.ofBits, Ideal.ieee, -EReal.coe_mul]; norm_num

/-- The word 0x43800000 is 256. -/
theorem ofBits_256 : Ideal.ofBits .f32 0x43800000#32 = ((256 : ℝ) : EReal) := by
  simp [Ideal.ofBits, Ideal.ieee, -EReal.coe_mul]; norm_num

/-- The word 0x48800000 is 262144. -/
theorem ofBits_262144 : Ideal.ofBits .f32 0x48800000#32 = ((262144 : ℝ) : EReal) := by
  simp [Ideal.ofBits, Ideal.ieee, -EReal.coe_mul]; norm_num

/-- Dividing by 2²⁶ and multiplying by 2⁸ is dividing by 2¹⁸, for every extended real. -/
theorem scale_eq (S : EReal) :
    Ideal.div S (Ideal.ofBits .f32 0x4C800000#32) * (Ideal.ofBits .f32 0x43800000#32 : EReal)
      = Ideal.div S (Ideal.ofBits .f32 0x48800000#32) := by
  rw [ofBits_2p26, ofBits_256, ofBits_262144, Ideal.div_coe (by norm_num : (67108864 : ℝ) ≠ 0),
    Ideal.div_coe (by norm_num : (262144 : ℝ) ≠ 0), mul_assoc, ← EReal.coe_mul]
  congr 2
  norm_num

/-- A sum over all 262144 rows is the sum over the 256 blocks of the sums over each block's 1024 rows. -/
theorem sum_rows_blocks (hN : (262144 : ℕ) = 256 * 1024) (f : Fin 262144 → EReal) :
    ∑ t : Fin 256, ∑ r : Fin 1024, f (Cert.Lib.BlockSum.blockRow (N := 262144) (a := 256) (b := 1024) hN t r) = ∑ n : Fin 262144, f n :=
  (Cert.Lib.BlockSum.sum_fin_blocks (M := EReal) (N := 262144) (a := 256) (b := 1024) hN f).symm

/-- The indices of a vector of 256 entries are its 256 positions. -/
def idxEquiv1 : SVec.Idx ≃ Fin 256 where
  toFun j := ⟨(j 0).val, (j 0).isLt⟩
  invFun t := ix1 t
  left_inv j := funext fun d => by match d with | ⟨0, _⟩ => rfl
  right_inv t := rfl

/-- A sum over a vector's indices is the sum over its positions. -/
theorem sum_idx1 (f : SVec.Idx → EReal) : ∑ j : SVec.Idx, f j = ∑ t : Fin 256, f (ix1 t) :=
  (Equiv.sum_comp idxEquiv1.symm f).symm

/-- The penalty tail at the ideal values: the 256 first entries of the tiles, summed, over the literal 262144. -/
theorem penTail_apply (h1 : SPen.Slices ![0, 0, 0] SPen1) (h2 : SPen1.ShapeCasts SVec) (h3 : SVec.ReducesTo [0] SNil) (h4 : 0 < SNil.numel)
    (A : FVec Ideal SPen .f32) (j : SNil.Idx) :
    penTail (F := Ideal) h1 h2 h3 h4 A j
      = Ideal.div (∑ t : Fin 256, A (ix3 t (0 : Fin 8) (0 : Fin 128))) (Ideal.ofBits .f32 0x48800000#32) := by
  unfold penTail
  show Ideal.div (Host.reduceAdd (F := Ideal) _ _ h3 h4 j) (Ideal.ofBits .f32 0x48800000#32) = _
  congr 1
  simp only [Host.reduceAdd, Ideal.hostReduceAdd_def]
  rw [Ideal.hostReduceAdd_total h3 (fun b => b.elim0)]
  show Ideal.ofBits .f32 0x00000000#32 + _ = _
  rw [Ideal.ofBits_zero_f32, zero_add, sum_idx1]
  refine Finset.sum_congr rfl fun t _ => ?_
  refine (shapeCast_apply _ h2 (ix1 t) (ix3 t (0 : Fin 1) (0 : Fin 1)) ?_).trans ?_
  · rw [Shape.rowMajor_val_three, Shape.rowMajor_val_one]
    show (t.val * 1 + 0) * 1 + 0 = t.val
    omega
  · exact extractStridedSlice_apply _ A h1 _ (ix3 t (0 : Fin 8) (0 : Fin 128)) (fun a => by
      match a with
      | ⟨0, _⟩ => show t.val = 0 + t.val; omega
      | ⟨1, _⟩ => rfl
      | ⟨2, _⟩ => rfl)

end Cert.VQ

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.KPay.lean ====
/-
  What the kernel body computes at one grid point, read entry by entry at the ideal values.

  The body loads a block `x0` of 1024 patch rows and the 256 code rows `x1`. Its softmax weights at (r, k) are
  `wgt` of row r against the codes; the block it stores to the reconstruction window is, at (r, l), `recon` of
  row r; the column of per-row penalties is `pen` of row r; and the tile it stores to the penalty window holds,
  in every entry, the sum of the 1024 per-row penalties.
-/
import proofs.«134466_j37005438222627_1_alg».proof.Proof.Gen.KernelIdeal.Skeleton
import proofs.«134466_j37005438222627_1_alg».proof.Proof.Spec
import proofs.«134466_j37005438222627_1_alg».proof.Proof.LibPlainDot
import proofs.«134466_j37005438222627_1_alg».proof.Proof.LibColumn
import Idealize.ShloMosaic.PureOps.Ideal.Laws
import Idealize.ShloMosaic.Lib.Pipeline.Value
import Idealize.ShloMosaic.Lib.ValueIdx
import Idealize.ShloMosaic.Lib.ValueLayout

open scoped BigOperators

noncomputable section

namespace Cert.VQ.KPay

open Idealize.ShloMosaic Idealize.ShloMosaic.ValueIdx Cert.KernelIdeal Cert.KernelIdeal.Gen

/-- The reduced index `r` with the lane `l` put back on the second axis is `(r, l)`. -/
private theorem lift_row {m n : ℕ} (h : (⟨2, ![m, n]⟩ : Shape).Reduces [1] (⟨1, ![m]⟩ : Shape)) (r : Fin m)
    (l : Fin ((⟨2, ![m, n]⟩ : Shape).size 1)) : h.lift (ix1 r) l = ix2 r (⟨l.val, l.isLt⟩ : Fin n) := by
  funext c; apply Fin.ext
  fin_cases c <;> rfl

/-- The reduced index with the row `r` put back on the first axis of a column is `(r, 0)`. -/
private theorem lift_col {m : ℕ} (h : (⟨2, ![m, 1]⟩ : Shape).Reduces [0] (⟨1, ![1]⟩ : Shape)) (j : (⟨1, ![1]⟩ : Shape).Idx)
    (r : Fin ((⟨2, ![m, 1]⟩ : Shape).size 0)) : h.lift j r = ix2 (⟨r.val, r.isLt⟩ : Fin m) (0 : Fin 1) := by
  funext c; apply Fin.ext
  fin_cases c
  · rfl
  · show (h.lift j r 1).val = 0
    have := (h.lift j r 1).isLt
    exact Nat.lt_one_iff.mp this

/-- A sum along the rows of an `[m, n]` array, read at row `r`. -/
private theorem rowSum_apply {m n : ℕ} (v : FVec Ideal (⟨2, ![m, n]⟩ : Shape) .f32)
    (h : (⟨2, ![m, n]⟩ : Shape).Reduces [1] (⟨1, ![m]⟩ : Shape)) (hφ : FKind.Formats .f32)
    (hacc : (0x00000000#32 : BitVec (FTy.bits .f32)) = FKind.add.neutral .f32 hφ) (r : Fin m) :
    multiReduction (F := Ideal) .add [1] (⟨1, ![m]⟩ : Shape) v 0x00000000#32 h hφ hacc (ix1 r) = ∑ l : Fin n, v (ix2 r l) :=
  (Ideal.multiReduction_add_single v 0x00000000#32 h hφ hacc (ix1 r)).trans
    (Finset.sum_congr rfl fun l _ => congrArg v (lift_row h r l))

/-- A maximum along the rows of an `[m, n]` array from -∞, read at row `r`. -/
private theorem rowMax_apply {m n : ℕ} (v : FVec Ideal (⟨2, ![m, n]⟩ : Shape) .f32)
    (h : (⟨2, ![m, n]⟩ : Shape).Reduces [1] (⟨1, ![m]⟩ : Shape)) (hφ : FKind.Formats .f32)
    (hacc : (0xFF800000#32 : BitVec (FTy.bits .f32)) = FKind.maximumf.neutral .f32 hφ) (r : Fin m) :
    multiReduction (F := Ideal) .maximumf [1] (⟨1, ![m]⟩ : Shape) v 0xFF800000#32 h hφ hacc (ix1 r)
      = (Finset.univ : Finset (Fin n)).fold max (Ideal.ofBits .f32 0xFF800000#32 : EReal) (fun k => v (ix2 r k)) :=
  (Ideal.multiReduction_maximumf_single v 0xFF800000#32 h hφ hacc (ix1 r)).trans
    (congrArg (fun f => (Finset.univ : Finset (Fin n)).fold max (Ideal.ofBits .f32 0xFF800000#32 : EReal) f)
      (funext fun k => congrArg v (lift_row h r k)))

/-- A sum down the one column of an `[m, 1]` array. -/
private theorem colSum_apply {m : ℕ} (v : FVec Ideal (⟨2, ![m, 1]⟩ : Shape) .f32)
    (h : (⟨2, ![m, 1]⟩ : Shape).Reduces [0] (⟨1, ![1]⟩ : Shape)) (hφ : FKind.Formats .f32)
    (hacc : (0x00000000#32 : BitVec (FTy.bits .f32)) = FKind.add.neutral .f32 hφ) (j : (⟨1, ![1]⟩ : Shape).Idx) :
    multiReduction (F := Ideal) .add [0] (⟨1, ![1]⟩ : Shape) v 0x00000000#32 h hφ hacc j = ∑ r : Fin m, v (ix2 r (0 : Fin 1)) :=
  (Ideal.multiReduction_add_single v 0x00000000#32 h hφ hacc j).trans
    (Finset.sum_congr rfl fun r _ => congrArg v (lift_col h j r))

/-- A vector of `m` entries cast to a column and spread over `p` lanes reads, at `(r, k)`, its entry `r`. -/
private theorem colSpread_apply {α : Type} {m p : ℕ} (hm : m ≠ 1) (v : (⟨1, ![m]⟩ : Shape).Idx → α)
    (hc : (⟨1, ![m]⟩ : Shape).ShapeCasts ⟨2, ![m, 1]⟩) (hb : (⟨2, ![m, 1]⟩ : Shape).Broadcasts ⟨2, ![m, p]⟩)
    (r : Fin m) (k : Fin p) :
    broadcastTo (⟨2, ![m, p]⟩ : Shape) (shapeCast (⟨2, ![m, 1]⟩ : Shape) v hc) hb (ix2 r k) = v (ix1 r) :=
  (ValueLayout.broadcastTo_a1_ab_apply hm _ hb r k).trans (ValueLayout.shapeCast_a_a1_apply v hc r 0)

/-- A vector of `p` entries cast to one row and spread over `m` rows reads, at `(r, k)`, its entry `k`. -/
private theorem rowSpread_apply {α : Type} {m p : ℕ} (v : (⟨1, ![p]⟩ : Shape).Idx → α)
    (hc : (⟨1, ![p]⟩ : Shape).ShapeCasts ⟨2, ![1, p]⟩) (hb : (⟨2, ![1, p]⟩ : Shape).Broadcasts ⟨2, ![m, p]⟩)
    (r : Fin m) (k : Fin p) :
    broadcastTo (⟨2, ![m, p]⟩ : Shape) (shapeCast (⟨2, ![1, p]⟩ : Shape) v hc) hb (ix2 r k) = v (ix1 k) :=
  (broadcastTo_1b_ab_apply _ hb r k).trans (shapeCast_a_1a_apply v hc 0 k)

/-- The logits of the block: the part of the body up to the scaled distances. -/
private def logits (v0 : Vec Ideal S1024x64 .f32) (v2 : Vec Ideal S256x64 .f32) : FVec Ideal S1024x256 .f32 :=
  have v1 : FVec Ideal S1024x64 .f32 := shapeCast S1024x64 v0 shapeCasts_S1024x64_S1024x64
  have v4 : FVec Ideal S1024x64 .f32 := mulf v1 v1
  have v5 : FVec Ideal S1024 .f32 := multiReduction .add [1] S1024 v4 0x00000000#32 reduces_S1024x64_S1024 (.inl rfl) rfl
  have v6 : FVec Ideal S1024x1 .f32 := shapeCast S1024x1 v5 shapeCasts_S1024_S1024x1
  have v7 : FVec Ideal S256x64 .f32 := mulf (k0_pay2 v2) (k0_pay2 v2)
  have v8 : FVec Ideal S256 .f32 := multiReduction .add [1] S256 v7 0x00000000#32 reduces_S256x64_S256 (.inl rfl) rfl
  have v9 : FVec Ideal S1x256 .f32 := shapeCast S1x256 v8 shapeCasts_S256_S1x256
  have v10 : FVec Ideal S64x256 .f32 := transpose S64x256 [1, 0] (k0_pay2 v2) transposes_S256x64_p1_0_S64x256
  have cst_4 : FVec Ideal S1024x256 .f32 := constant S1024x256 .f32 0x00000000#32
  have v11 : FVec Ideal S1024x256 .f32 := matmul dot_S1024x64_S64x256_S1024x256_1_0_0_1_n_n (some .fp32) v1 v10 cst_4
  have cst_5 : Ideal .f32 := Scalar.ofBits .f32 0x40000000#32
  have v12 : FVec Ideal S1024x256 .f32 := broadcast S1024x256 cst_5
  have v13 : FVec Ideal S1024x256 .f32 := mulf v12 v11
  have v14 : FVec Ideal S1024x256 .f32 := broadcastTo S1024x256 v6 broadcasts_S1024x1_S1024x256
  have v15 : FVec Ideal S1024x256 .f32 := subf v14 v13
  have v16 : FVec Ideal S1024x256 .f32 := broadcastTo S1024x256 v9 broadcasts_S1x256_S1024x256
  have v17 : FVec Ideal S1024x256 .f32 := addf v15 v16
  have cst_6 : Ideal .f32 := Scalar.ofBits .f32 0xC20C0000#32
  have v18 : FVec Ideal S1024x256 .f32 := broadcast S1024x256 cst_6
  have v19 : FVec Ideal S1024x256 .f32 := mulf v18 v17
  v19

/-- The largest logit of each row, taken from -∞ twice, as a column spread over the codes. -/
private def rowMaxB (v19 : FVec Ideal S1024x256 .f32) : FVec Ideal S1024x256 .f32 :=
  broadcastTo S1024x256
    (shapeCast S1024x1
      (maximumf (broadcast S1024 (Scalar.ofBits .f32 0xFF800000#32 : Ideal .f32))
        (multiReduction .maximumf [1] S1024 v19 0xFF800000#32 reduces_S1024x256_S1024 (.inl rfl) rfl))
      shapeCasts_S1024_S1024x1)
    broadcasts_S1024x1_S1024x256

/-- The shifted exponentials of a block of logits. -/
private def expB (v19 : FVec Ideal S1024x256 .f32) : FVec Ideal S1024x256 .f32 := exp (subf v19 (rowMaxB v19))

/-- The softmax along the rows of a block of logits: the rest of the body. -/
private def softmax (v19 : FVec Ideal S1024x256 .f32) : FVec Ideal S1024x256 .f32 :=
  divf (expB v19)
    (broadcastTo S1024x256
      (shapeCast S1024x1
        (multiReduction .add [1] S1024 (expB v19) 0x00000000#32 reduces_S1024x256_S1024 (.inl rfl) rfl)
        shapeCasts_S1024_S1024x1)
      broadcasts_S1024x1_S1024x256)

/-- The weights' payload is the softmax of the logits. -/
private theorem pay3_eq (v0 : Vec Ideal S1024x64 .f32) (v2 : Vec Ideal S256x64 .f32) :
    k0_pay3 (F := Ideal) v0 v2 = softmax (logits v0 v2) := rfl

/-- The two matrix products' dimension numbers are the plain ones. -/
private theorem plain1 : PlainDot.IsPlain dot_S1024x64_S64x256_S1024x256_1_0_0_1_n_n := ⟨rfl, rfl, rfl, rfl, rfl, rfl⟩
private theorem plain2 : PlainDot.IsPlain dot_S1024x256_S256x64_S1024x64_1_0_0_1_n_n := ⟨rfl, rfl, rfl, rfl, rfl, rfl⟩

/-- The logits at row `r` and code `k`. -/
private theorem logits_apply (x0 : Vec Ideal S1024x64 .f32) (x1 : Vec Ideal S256x64 .f32) (r : Fin 1024) (k : Fin 256) :
    logits x0 x1 (ix2 r k) = VQ.logit (VQ.row x0 r) (VQ.mat x1) k := by
  have e0 : shapeCast S1024x64 x0 shapeCasts_S1024x64_S1024x64 = x0 := shapeCast_self x0 _
  have e1 : k0_pay2 (F := Ideal) x1 = x1 := shapeCast_self x1 _
  show (Ideal.ofBits .f32 0xC20C0000#32 : EReal) * ((_ - (Ideal.ofBits .f32 0x40000000#32 : EReal) * _) + _)
    = (Ideal.ofBits .f32 0xC20C0000#32 : EReal)
        * ((VQ.sqn (VQ.row x0 r) - (Ideal.ofBits .f32 0x40000000#32 : EReal) * VQ.inner (VQ.row x0 r) (VQ.mat x1 k))
            + VQ.sqn (VQ.mat x1 k))
  refine congrArg _ (congrArg₂ _ (congrArg₂ _ ?_ (congrArg _ ?_)) ?_)
  · -- the row's squared norm, a column spread over the codes
    refine (colSpread_apply (by decide) _ _ _ r k).trans ?_
    refine (rowSum_apply _ _ _ _ r).trans ?_
    rw [e0]; rfl
  · -- the inner product: the product with the transposed codes
    refine (PlainDot.matmul_zero_apply plain1 _ _ _ r k).trans ?_
    refine Finset.sum_congr rfl fun l _ => ?_
    rw [e0, transpose_ix2_apply, e1]; rfl
  · -- the code's squared norm, a row spread over the patches
    refine (rowSpread_apply _ _ _ r k).trans ?_
    refine (rowSum_apply _ _ _ _ k).trans ?_
    rw [e1]; rfl

/-- The spread row maximum at `(r, k)`. -/
private theorem rowMaxB_apply (v : FVec Ideal S1024x256 .f32) (r : Fin 1024) (k : Fin 256) :
    rowMaxB v (ix2 r k)
      = max (Ideal.ofBits .f32 0xFF800000#32 : EReal)
          ((Finset.univ : Finset (Fin 256)).fold max (Ideal.ofBits .f32 0xFF800000#32 : EReal) (fun k' => v (ix2 r k'))) := by
  refine (colSpread_apply (by decide) _ _ _ r k).trans ?_
  show max (Ideal.ofBits .f32 0xFF800000#32 : EReal) _ = _
  exact congrArg _ (rowMax_apply v _ _ _ r)

/-- The shifted exponential at `(r, k)`. -/
private theorem expB_apply (v : FVec Ideal S1024x256 .f32) (r : Fin 1024) (k : Fin 256) :
    expB v (ix2 r k)
      = Ideal.exp (v (ix2 r k) - max (Ideal.ofBits .f32 0xFF800000#32 : EReal)
          ((Finset.univ : Finset (Fin 256)).fold max (Ideal.ofBits .f32 0xFF800000#32 : EReal) (fun k' => v (ix2 r k')))) := by
  show Ideal.exp (v (ix2 r k) - rowMaxB v (ix2 r k)) = _
  rw [rowMaxB_apply]

/-- The softmax of a block of logits at row `r` and code `k`. -/
private theorem softmax_apply (v : FVec Ideal S1024x256 .f32) (r : Fin 1024) (k : Fin 256) :
    softmax v (ix2 r k)
      = Ideal.div
          (Ideal.exp (v (ix2 r k) - max (Ideal.ofBits .f32 0xFF800000#32 : EReal)
              ((Finset.univ : Finset (Fin 256)).fold max (Ideal.ofBits .f32 0xFF800000#32 : EReal) (fun k' => v (ix2 r k')))))
          (∑ k'' : Fin 256, Ideal.exp (v (ix2 r k'') - max (Ideal.ofBits .f32 0xFF800000#32 : EReal)
              ((Finset.univ : Finset (Fin 256)).fold max (Ideal.ofBits .f32 0xFF800000#32 : EReal) (fun k' => v (ix2 r k'))))) := by
  show Ideal.div (expB v (ix2 r k)) _ = _
  refine congrArg₂ Ideal.div (expB_apply v r k) ?_
  refine (colSpread_apply (by decide) _ _ _ r k).trans ?_
  refine (rowSum_apply _ _ _ _ r).trans ?_
  exact Finset.sum_congr rfl fun k'' _ => expB_apply v r k''

/-- The softmax weights of the block, at row `r` and code `k`. -/
theorem pay3_apply (x0 : Vec Ideal S1024x64 .f32) (x1 : Vec Ideal S256x64 .f32) (r : Fin 1024) (k : Fin 256) :
    k0_pay3 (F := Ideal) x0 x1 (ix2 r k) = VQ.wgt (VQ.row x0 r) (VQ.mat x1) k := by
  rw [pay3_eq, softmax_apply]
  simp only [logits_apply]
  rfl

attribute [local irreducible] k0_pay3

/-- The reconstructed block, at row `r` and lane `l`. -/
theorem pay4_apply (x0 : Vec Ideal S1024x64 .f32) (x1 : Vec Ideal S256x64 .f32) (r : Fin 1024) (l : Fin 64) :
    k0_pay4 (F := Ideal) x0 x1 (ix2 r l) = VQ.recon (VQ.row x0 r) (VQ.mat x1) l := by
  have e1 : k0_pay2 (F := Ideal) x1 = x1 := shapeCast_self x1 _
  unfold VQ.recon
  refine (Ideal.matmul_constant_zero_apply dot_S1024x256_S256x64_S1024x64_1_0_0_1_n_n none _ _ (ix2 r l)).trans ?_
  refine (PlainDot.sum_contr plain2 _ _ r l).trans ?_
  refine Finset.sum_congr rfl fun k _ => ?_
  rw [truncf_apply, truncf_apply, pay3_apply, e1]
  rfl

/-- The column of per-row penalties, at row `r`. -/
theorem pay5_apply (x0 : Vec Ideal S1024x64 .f32) (x1 : Vec Ideal S256x64 .f32) (r : Fin 1024) (u : Fin 1) :
    k0_pay5 (F := Ideal) x0 x1 (ix2 r u) = VQ.pen (VQ.row x0 r) (VQ.mat x1) := by
  unfold VQ.pen
  unfold k0_pay5
  refine (ValueLayout.shapeCast_a_a1_apply _ shapeCasts_S1024_S1024x1 r u).trans ?_
  refine (rowSum_apply _ _ _ _ r).trans ?_
  refine Finset.sum_congr rfl fun k _ => ?_
  show min (k0_pay3 (F := Ideal) x0 x1 (ix2 r k))
      ((Ideal.ofBits .f32 0x3F800000#32 : EReal) - k0_pay3 (F := Ideal) x0 x1 (ix2 r k)) = _
  rw [pay3_apply]

/-- A `[1, 1, 1]` array spread over a `[1, a, b]` tile reads its one entry everywhere. -/
private theorem spread111_apply {α : Type} {a b : ℕ} (v : (⟨3, ![1, 1, 1]⟩ : Shape).Idx → α)
    (h : (⟨3, ![1, 1, 1]⟩ : Shape).Broadcasts ⟨3, ![1, a, b]⟩) (i : (⟨3, ![1, a, b]⟩ : Shape).Idx) :
    broadcastTo (⟨3, ![1, a, b]⟩ : Shape) v h i = v (ix3 (0 : Fin 1) (0 : Fin 1) (0 : Fin 1)) :=
  broadcastTo_apply v h i _ fun ax => by
    match ax with
    | ⟨0, _⟩ => rfl
    | ⟨1, _⟩ => rfl
    | ⟨2, _⟩ => rfl

/-- The penalty tile: every entry is the sum of the column. -/
theorem pay1_apply (v : FVec Ideal S1024x1 .f32) (i : S1x8x128.Idx) :
    k0_pay1 (F := Ideal) v i = ∑ r : Fin 1024, v (ix2 r (0 : Fin 1)) := by
  unfold k0_pay1
  refine (spread111_apply _ broadcasts_S1x1x1_S1x8x128 i).trans ?_
  refine (congrFun (shapeCast_self _ shapeCasts_S1x1x1_S1x1x1) _).trans ?_
  refine (shapeCast_ab_1ab_apply _ shapeCasts_S1x1_S1x1x1 0 0 0).trans ?_
  refine (shapeCast_a_1a_apply _ shapeCasts_S1_S1x1 0 0).trans ?_
  exact colSum_apply v _ _ _ (ix1 0)

end Cert.VQ.KPay

end
-- ==== Proof.KBlocks.lean ====
/-
  From blocks to arrays: what the two output arrays of the kernel's region hold after all 256 grid points.

  Grid point `t` reads rows `t·1024 … t·1024+1023` of the patch array (and all code rows), writes the same rows
  of the reconstruction array and tile `t` of the penalty array; the 256 blocks tile each array, so each array ends
  as one function of the patch and code arrays as the region finds them.
-/
import proofs.«134466_j37005438222627_1_alg».proof.Proof.Gen.KernelIdeal.Frame
import proofs.«134466_j37005438222627_1_alg».proof.Proof.Spec
import proofs.«134466_j37005438222627_1_alg».proof.Proof.KPay
import proofs.«134466_j37005438222627_1_alg».proof.Proof.LibBlockSum
import Idealize.ShloMosaic.Lib.Pipeline.Value
import Idealize.ShloMosaic.Lib.ValueIdx

open scoped BigOperators

noncomputable section

namespace Cert.VQ.KBlocks

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-- The zero offset of a rank-2 rectangle. -/
private theorem hz2 : (![0, 0] : Fin 2 → Nat) = fun _ => 0 := funext fun a => by fin_cases a <;> rfl
/-- The zero offset of a rank-3 rectangle. -/
private theorem hz3 : (![0, 0, 0] : Fin 3 → Nat) = fun _ => 0 := funext fun a => by fin_cases a <;> rfl

/-- The block index of each window at grid point `t`, axis by axis: the patch, reconstruction and penalty windows move
    with the point on their first axis; the code window stays at the origin. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The grid has 256 points. -/
private theorem hN : cfg0.N = 256 := by decide

/-- Row `t·1024 + r` is a row of the patch array. -/
private theorem row_lt (t : Fin cfg0.N) (r : Fin 1024) : t.val * 1024 + r.val < 262144 := by
  have h : t.val < 256 := lt_of_lt_of_eq t.isLt hN
  have := r.isLt; omega

/-- The patch block of point `t`, at row `r` and lane `l`: row `t·1024 + r` of the patch array. -/
private theorem iblk0_apply (c : Dev nD) (t : Fin cfg0.N) (r : Fin 1024) (l : Fin 64) :
    iblk m c 0 t (ix2 r l) = V m c main_v3 (ix2 ⟨t.val * 1024 + r.val, row_lt t r⟩ l) := by
  obtain ⟨e0, e1, -⟩ := idx_facts t
  show V m c main_v3 (((cfg0.win 0).blk t).view.emb (ix2 r l)) = _
  refine congrArg _ (funext fun a => Fin.ext ?_)
  match a with
  | ⟨0, _⟩ => show win0_0.index t (0 : Fin 2) * 1024 + 1 * r.val = t.val * 1024 + r.val; omega
  | ⟨1, _⟩ => show win0_0.index t (1 : Fin 2) * 64 + 1 * l.val = l.val; omega

/-- The code block of any point is the whole code array. -/
private theorem iblk1_apply (c : Dev nD) (t : Fin cfg0.N) (k : Fin 256) (l : Fin 64) :
    iblk m c 1 t (ix2 k l) = V m c main_v4 (ix2 k l) := by
  obtain ⟨-, -, e0, e1, -⟩ := idx_facts t
  show V m c main_v4 (((cfg0.win 1).blk t).view.emb (ix2 k l)) = _
  refine congrArg _ (funext fun a => Fin.ext ?_)
  match a with
  | ⟨0, _⟩ => show win0_1.index t (0 : Fin 2) * 256 + 1 * k.val = k.val; omega
  | ⟨1, _⟩ => show win0_1.index t (1 : Fin 2) * 64 + 1 * l.val = l.val; omega

/-- The rows of the patch block of point `t` are rows `t·1024 + r` of the patch array. -/
private theorem row_iblk0 (c : Dev nD) (t : Fin cfg0.N) (r : Fin 1024) :
    VQ.row (iblk m c 0 t) r = VQ.row (V m c main_v3) ⟨t.val * 1024 + r.val, row_lt t r⟩ :=
  funext fun l => iblk0_apply m c t r l

/-- The code block of any point, as rows, is the code array as rows. -/
private theorem mat_iblk1 (c : Dev nD) (t : Fin cfg0.N) :
    VQ.mat (iblk m c 1 t) = VQ.mat (V m c main_v4) :=
  funext fun k => funext fun l => iblk1_apply m c t k l

/-! ## The reconstruction array -/

/-- What the reconstruction array ends holding: at row `n` and lane `l`, the reconstruction of patch row `n`. -/
private def G2 (c : Dev nD) : S262144x64.Idx → EReal := fun i =>
  VQ.recon (VQ.row (V m c main_v3) ⟨(i 0).val, (i 0).isLt⟩) (VQ.mat (V m c main_v4)) ⟨(i 1).val, (i 1).isLt⟩

/-- That function at an index whose coordinates are `n` and `l`. -/
private theorem G2_apply (c : Dev nD) (i : S262144x64.Idx) (n : Fin 262144) (l : Fin 64)
    (hn : (i 0).val = n.val) (hl : (i 1).val = l.val) :
    G2 m c i = VQ.recon (VQ.row (V m c main_v3) n) (VQ.mat (V m c main_v4)) l := by
  unfold G2
  have h0 : (⟨(i 0).val, (i 0).isLt⟩ : Fin 262144) = n := Fin.ext hn
  have h1 : (⟨(i 1).val, (i 1).isLt⟩ : Fin 64) = l := Fin.ext hl
  rw [h0, h1]

/-- Grid point `t` writes back rows `t·1024 …` of that array. -/
private theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2]
  unfold out0_2
  rw [View.canon_unit_zero hz2]
  simp only [View.ld_unit_zero (S := S1024x64) hz2, View.ld_unit_zero (S := S256x64) hz2]
  obtain ⟨-, -, -, -, e0, e1, -⟩ := idx_facts t
  have key : ∀ (r : Fin 1024) (l : Fin 64),
      k0_pay4 (F := Ideal) (iblk m c 0 t) (iblk m c 1 t) (ix2 r l)
        = G2 m c (((cfg0.win 2).blk t).view.emb (ix2 r l)) := by
    intro r l
    rw [KPay.pay4_apply, row_iblk0, mat_iblk1]
    refine (G2_apply m c _ _ _ ?_ ?_).symm
    · show win0_2.index t (0 : Fin 2) * 1024 + 1 * r.val = t.val * 1024 + r.val
      omega
    · show win0_2.index t (1 : Fin 2) * 64 + 1 * l.val = l.val
      omega
  have key' : k0_pay4 (F := Ideal) (iblk m c 0 t) (iblk m c 1 t)
      = fun y : S1024x64.Idx => G2 m c (((cfg0.win 2).blk t).view.emb y) := by
    funext y
    rw [eq_ix2 y]
    exact key (y 0) (y 1)
  exact key'

/-- An index of the reconstruction array is in point `t`'s block iff each coordinate is in the block's range. -/
private theorem mem_blk2 (t : Fin cfg0.N) (i : S262144x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v5_0).slice (win0_2.rect t)).set ↔ _
  rw [View.set_slice_whole, Rect.mem_set_unit]
  exact Iff.rfl

/-- Every row of the reconstruction array is in the block of the point `n / 1024`. -/
private theorem cover2 (i : S262144x64.Idx) :
    ∃ t : Fin cfg0.N, (cfg0.win 2).flush t = true ∧ i ∈ ((cfg0.win 2).blk t).view.set := by
  have hi0 : (i 0).val < 262144 := (i 0).isLt
  have hi1 : (i 1).val < 64 := (i 1).isLt
  have ht : (i 0).val / 1024 < cfg0.N := by rw [hN]; omega
  refine ⟨⟨(i 0).val / 1024, ht⟩, flush0_2 _, ?_⟩
  obtain ⟨-, -, -, -, e0, e1, -⟩ := idx_facts ⟨(i 0).val / 1024, ht⟩
  rw [mem_blk2]
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_2.index ⟨(i 0).val / 1024, ht⟩ (1 : Fin 2) * 64 ≤ (i 1).val ∧ (i 1).val < win0_2.index ⟨(i 0).val / 1024, ht⟩ (1 : Fin 2) * 64 + 64
    rw [e1]; omega

/-- The reconstruction array after the run. -/
private theorem final2 (c : Dev nD) : (dats m 0 c).arrAt 2 cfg0.N = G2 m c :=
  (dats m 0 c).arrAt_eq_of_cover 2 (G2 m c) (fun t _ => flushed2_eq m c t) cover2

/-- The reconstruction array after the run, at patch row `n` and lane `l`. -/
theorem arr2_apply (c : Dev nD) (n : Fin 262144) (l : Fin 64) :
    (dats m 0 c).arrAt 2 cfg0.N (ix2 n l) = VQ.recon (VQ.row (V m c main_v3) n) (VQ.mat (V m c main_v4)) l :=
  (congrFun (final2 m c) (ix2 n l)).trans (G2_apply m c _ n l rfl rfl)

/-! ## The penalty array -/

/-- What the penalty array ends holding: every entry of tile `t` is the sum of the penalties of the tile's rows. -/
private def G3 (c : Dev nD) : S256x8x128.Idx → EReal := fun i =>
  ∑ r : Fin 1024, VQ.pen (VQ.row (V m c main_v3)
    (Cert.Lib.BlockSum.blockRow (N := 262144) (a := 256) (b := 1024) rfl ⟨(i 0).val, (i 0).isLt⟩ r)) (VQ.mat (V m c main_v4))

/-- That function at an index of tile `t`. -/
private theorem G3_apply (c : Dev nD) (i : S256x8x128.Idx) (t : Fin 256) (ht : (i 0).val = t.val) :
    G3 m c i = ∑ r : Fin 1024, VQ.pen (VQ.row (V m c main_v3)
      (Cert.Lib.BlockSum.blockRow (N := 262144) (a := 256) (b := 1024) rfl t r)) (VQ.mat (V m c main_v4)) := by
  unfold G3
  have h0 : (⟨(i 0).val, (i 0).isLt⟩ : Fin 256) = t := Fin.ext ht
  rw [h0]

/-- Grid point `t` writes back tile `t` of that array. -/
private theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  unfold out0_3
  rw [View.canon_unit_zero hz3]
  simp only [View.ld_unit_zero (S := S1024x64) hz2, View.ld_unit_zero (S := S256x64) hz2]
  obtain ⟨-, -, -, -, -, -, e0, e1, e2⟩ := idx_facts t
  have ht : t.val < 256 := lt_of_lt_of_eq t.isLt hN
  have key : k0_pay1 (F := Ideal) (k0_pay5 (F := Ideal) (iblk m c 0 t) (iblk m c 1 t))
      = fun y : S1x8x128.Idx => G3 m c (((cfg0.win 3).blk t).view.emb y) := by
    funext y
    refine (KPay.pay1_apply _ y).trans ?_
    have hy : (y 0).val < 1 := (y 0).isLt
    refine Eq.trans ?_ (G3_apply m c _ ⟨t.val, ht⟩ ?_).symm
    · refine Finset.sum_congr rfl fun r _ => ?_
      rw [KPay.pay5_apply, row_iblk0, mat_iblk1]
      rfl
    · show win0_3.index t (0 : Fin 3) * 1 + 1 * (y 0).val = t.val
      omega
  exact key

/-- An index of the penalty array is in point `t`'s block iff each coordinate is in the block's range. -/
private theorem mem_blk3 (t : Fin cfg0.N) (i : S256x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v5_1).slice (win0_3.rect t)).set ↔ _
  rw [View.set_slice_whole, Rect.mem_set_unit]
  exact Iff.rfl

/-- Tile `t` of the penalty array is the block of point `t`. -/
private theorem cover3 (i : S256x8x128.Idx) :
    ∃ t : Fin cfg0.N, (cfg0.win 3).flush t = true ∧ i ∈ ((cfg0.win 3).blk t).view.set := by
  have hi0 : (i 0).val < 256 := (i 0).isLt
  have hi1 : (i 1).val < 8 := (i 1).isLt
  have hi2 : (i 2).val < 128 := (i 2).isLt
  have ht : (i 0).val < cfg0.N := by rw [hN]; omega
  refine ⟨⟨(i 0).val, ht⟩, flush0_3 _, ?_⟩
  obtain ⟨-, -, -, -, -, -, e0, e1, e2⟩ := idx_facts ⟨(i 0).val, ht⟩
  rw [mem_blk3]
  intro a
  match a with
  | ⟨0, _⟩ =>
    show win0_3.index ⟨(i 0).val, ht⟩ (0 : Fin 3) * 1 ≤ (i 0).val ∧ (i 0).val < win0_3.index ⟨(i 0).val, ht⟩ (0 : Fin 3) * 1 + 1
    rw [e0]; show (i 0).val * 1 ≤ (i 0).val ∧ (i 0).val < (i 0).val * 1 + 1; omega
  | ⟨1, _⟩ =>
    show win0_3.index ⟨(i 0).val, ht⟩ (1 : Fin 3) * 8 ≤ (i 1).val ∧ (i 1).val < win0_3.index ⟨(i 0).val, ht⟩ (1 : Fin 3) * 8 + 8
    rw [e1]; omega
  | ⟨2, _⟩ =>
    show win0_3.index ⟨(i 0).val, ht⟩ (2 : Fin 3) * 128 ≤ (i 2).val ∧ (i 2).val < win0_3.index ⟨(i 0).val, ht⟩ (2 : Fin 3) * 128 + 128
    rw [e2]; omega

/-- The penalty array after the run. -/
private theorem final3 (c : Dev nD) : (dats m 0 c).arrAt 3 cfg0.N = G3 m c :=
  (dats m 0 c).arrAt_eq_of_cover 3 (G3 m c) (fun t _ => flushed3_eq m c t) cover3

/-- The penalty array after the run: every entry of tile `t` is the sum of the penalties of the tile's 1024 patch rows. -/
theorem arr3_apply (c : Dev nD) (t : Fin 256) (a : Fin 8) (b : Fin 128) :
    (dats m 0 c).arrAt 3 cfg0.N (ix3 t a b)
      = ∑ r : Fin 1024, VQ.pen (VQ.row (V m c main_v3) (Cert.Lib.BlockSum.blockRow (N := 262144) (a := 256) (b := 1024) rfl t r)) (VQ.mat (V m c main_v4)) :=
  (congrFun (final3 m c) (ix3 t a b)).trans (G3_apply m c _ t rfl)

end Cert.VQ.KBlocks

end
-- ==== Proof.KRun.lean ====
/-
  The kernel program's run with its two results named: the host lines before the region make the patch rows and
  code rows from the arguments, and the host lines after it fold the reconstruction array back into images and
  reduce the penalty array to one number.
-/
import proofs.«134466_j37005438222627_1_alg».proof.Proof.Gen.KernelIdeal.Frame
import proofs.«134466_j37005438222627_1_alg».proof.Proof.Layout
import Idealize.ShloMosaic.Lib.Pipeline.Value
import Idealize.ShloMosaic.Lib.StableHlo.Run

open scoped BigOperators

noncomputable section

namespace Cert.VQ.KRun

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The patch rows the region finds are the unfolded argument images. -/
theorem V_main_v3 (c : Dev nD) :
    V m c main_v3 = VQ.unfoldImg (F := Ideal) shapeCasts_S64x1x512x512_S64x1x64x8x64x8 transposes_S64x1x64x8x64x8_S64x64x64x1x8x8_0_2_4_1_3_5
      shapeCasts_S64x64x64x1x8x8_S64x4096x64 shapeCasts_S64x4096x64_S262144x64 (m ((c : Thread nD τ).loc main_arg0)) := by
  -- the four lines that lead to the patch rows are a split, a transposition and two merges of the images:
  -- composed in that order they are the unfolding
  dsimp only [Gen.V, Gen.V0]
  simp only [Gen.hostOps0, List.flatten_cons, List.flatten_nil, List.append_nil, List.cons_append, List.nil_append]
  after_results
  rfl

/-- The code rows the region finds are the reshaped argument codebook. -/
theorem V_main_v4 (c : Dev nD) :
    V m c main_v4 = shapeCast S256x64 (m ((c : Thread nD τ).loc main_arg1)) shapeCasts_S256x8x8_S256x64 := by
  -- one line writes the code rows: the merge of each code's 8×8 tile into a row of 64
  dsimp only [Gen.V, Gen.V0]
  simp only [Gen.hostOps0, List.flatten_cons, List.flatten_nil, List.append_nil, List.cons_append, List.nil_append]
  after_results
  rfl

/-- After the region the image result is the fold of the reconstruction array as the region left it: the four lines
    that lead to it are two splits, a transposition and a merge of that array. -/
private theorem post_v9 (c : Dev nD) :
    Pipeline.afterTail₀ cfgs (dats m) 0 (V0 m) [hostOps1] c main_v9
      = VQ.foldImg (F := Ideal) shapeCasts_S262144x64_S64x4096x64 shapeCasts_S64x4096x64_S64x64x64x1x8x8
          transposes_S64x64x64x1x8x8_S64x1x64x8x64x8_0_3_1_4_2_5 shapeCasts_S64x1x64x8x64x8_S64x1x512x512 ((dats m 0 c).arrAt 2 cfg0.N) := by
  unfold Pipeline.afterTail₀
  show StableHlo.after hostOps1 _ (Proc.devRef .tc main_v9) = _
  after_results
  -- the reconstruction array is the third window's, so after the region it holds that window's final contents
  have hw : Pipeline.withArrays (cfgs 0).spec c (V0 m c) (fun w => (dats m 0 c).arrAt w (cfgs 0).N) (Proc.devRef .tc main_v5_0)
      = (dats m 0 c).arrAt 2 cfg0.N :=
    Pipeline.withArrays_arr spec0 launch0.win.arr_inj c _ _ 2
  rw [hw]
  rfl

/-- After the region the penalty result is the reduction of the penalty array as the region left it: the first entry
    of each block's tile, the 256 of them summed from zero, the total divided by 262144. -/
private theorem post_v13 (c : Dev nD) :
    Pipeline.afterTail₀ cfgs (dats m) 0 (V0 m) [hostOps1] c main_v13
      = VQ.penTail (F := Ideal) slices_S256x8x128_S256x1x1_0_0_0 shapeCasts_S256x1x1_S256 reducesTo_S256_S_d0 h_S_ ((dats m 0 c).arrAt 3 cfg0.N) := by
  unfold Pipeline.afterTail₀
  show StableHlo.after hostOps1 _ (Proc.devRef .tc main_v13) = _
  after_results
  -- the penalty array is the fourth window's, so after the region it holds that window's final contents
  have hw : Pipeline.withArrays (cfgs 0).spec c (V0 m c) (fun w => (dats m 0 c).arrAt w (cfgs 0).N) (Proc.devRef .tc main_v5_1)
      = (dats m 0 c).arrAt 3 cfg0.N :=
    Pipeline.withArrays_arr spec0 launch0.win.arr_inj c _ _ 3
  rw [hw]
  rfl

/-- Every run of the kernel program ends with the image result at the fold of the reconstruction array, the
    penalty result at the reduced penalty array, and the arguments unchanged. -/
theorem run_values : θ_run defs (onTc (τ := τ) (main (F := Ideal))) ⟨m, fun _ => 0, ρ⟩ fun r => ∀ c : Dev nD,
      r.2.mem ((c.tc : Thread nD τ).loc main_v9)
        = VQ.foldImg (F := Ideal) shapeCasts_S262144x64_S64x4096x64 shapeCasts_S64x4096x64_S64x64x64x1x8x8
            transposes_S64x64x64x1x8x8_S64x1x64x8x64x8_0_3_1_4_2_5 shapeCasts_S64x1x64x8x64x8_S64x1x512x512 ((dats m 0 c).arrAt 2 cfg0.N)
      ∧ r.2.mem ((c.tc : Thread nD τ).loc main_v13)
        = VQ.penTail (F := Ideal) slices_S256x8x128_S256x1x1_0_0_0 shapeCasts_S256x1x1_S256 reducesTo_S256_S_d0 h_S_ ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  -- neither result nor argument is a window's array, so each ends at what the lines after the region leave in it:
  -- the two results as computed above, the two arguments untouched by any line
  (θ_run defs _ _).mono (fun r h c =>
    ⟨((h c).2 main_v9 (Pipeline.mem_restRefs_of main_v9 (by decide) (by decide))).trans (post_v9 m c),
     ((h c).2 main_v13 (Pipeline.mem_restRefs_of main_v13 (by decide) (by decide))).trans (post_v13 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.VQ.KRun

end
-- ==== Proof.RefRead.lean ====
/-
  The reference, read entry by entry at the ideal values, over its patch rows `val_main_v3` and code rows
  `val_main_v4`: its softmax weights, its reconstruction before the fold back into images, and its total penalty.
-/
import proofs.«134466_j37005438222627_1_alg».proof.Proof.Gen.ReferenceIdeal.Read
import proofs.«134466_j37005438222627_1_alg».proof.Proof.Spec
import proofs.«134466_j37005438222627_1_alg».proof.Proof.Layout
import Idealize.ShloMosaic.PureOps.Ideal.Laws
import Idealize.ShloMosaic.Lib.Pipeline.Value
import Idealize.ShloMosaic.Lib.ValueIdx

open scoped BigOperators

noncomputable section

namespace Cert.VQ.RefRead

open Idealize.ShloMosaic Idealize.ShloMosaic.ValueIdx Cert.ReferenceIdeal Cert.ReferenceIdeal.Gen Cert.ReferenceIdeal.Read

/-! ## The index functions of the stages, at an index given by its coordinates -/

private theorem lidx11_ix2 (n : Fin 262144) (k : Fin 256) (l : Fin 64) : lidx_main_v11 (ix2 n k) l = ix2 n l :=
  funext fun a => Fin.ext (by match a with | ⟨0, _⟩ => rfl | ⟨1, _⟩ => rfl)

private theorem ridx11_ix2 (n : Fin 262144) (k : Fin 256) (l : Fin 64) : ridx_main_v11 (ix2 n k) l = ix2 l k :=
  funext fun a => Fin.ext (by match a with | ⟨0, _⟩ => rfl | ⟨1, _⟩ => rfl)

private theorem idx10_ix2 (l : Fin 64) (k : Fin 256) : idx_main_v10 (ix2 l k) = ix2 k l :=
  funext fun a => Fin.ext (by match a with | ⟨0, _⟩ => rfl | ⟨1, _⟩ => rfl)

private theorem idx14_ix2 (n : Fin 262144) (k : Fin 256) : idx_main_v14 (ix2 n k) = ix2 n (0 : Fin 1) :=
  funext fun a => Fin.ext (by match a with | ⟨0, _⟩ => rfl | ⟨1, _⟩ => rfl)

private theorem idx7_ix2 (n : Fin 262144) (z : Fin 1) : idx_main_v7 (ix2 n z) = ix1 n :=
  funext fun a => Fin.ext (by match a with | ⟨0, _⟩ => rfl)

private theorem idx6_ix1 (n : Fin 262144) (l : Fin 64) : idx_main_v6 (ix1 n) l = ix2 n l :=
  funext fun a => Fin.ext (by match a with | ⟨0, _⟩ => rfl | ⟨1, _⟩ => rfl)

private theorem idx17_ix2 (n : Fin 262144) (k : Fin 256) : idx_main_v17 (ix2 n k) = ix2 (0 : Fin 1) k :=
  funext fun a => Fin.ext (by match a with | ⟨0, _⟩ => rfl | ⟨1, _⟩ => rfl)

private theorem idx16_ix2 (z : Fin 1) (k : Fin 256) : idx_main_v16 (ix2 z k) = ix1 k :=
  funext fun a => Fin.ext (by match a with | ⟨0, _⟩ => rfl)

private theorem idx9_ix1 (k : Fin 256) (l : Fin 64) : idx_main_v9 (ix1 k) l = ix2 k l :=
  funext fun a => Fin.ext (by match a with | ⟨0, _⟩ => rfl | ⟨1, _⟩ => rfl)

/-! ## The logits -/

/-- The reference's logits at patch row `n` and code `k`. -/
theorem logit_apply (x0 : (⟨S64x1x512x512, .f32⟩ : BufTy).Contents (Elt Ideal)) (x1 : (⟨S256x8x8, .f32⟩ : BufTy).Contents (Elt Ideal))
    (n : Fin 262144) (k : Fin 256) :
    val_main_v20 (F := Ideal) x0 x1 (ix2 n k)
      = VQ.logit (VQ.row (val_main_v3 (F := Ideal) x0) n) (VQ.mat (val_main_v4 (F := Ideal) x1)) k := by
  rw [val_main_v20_apply, val_main_v19_apply, val_main_cst_2_apply, val_main_v18_apply, val_main_v15_apply,
    val_main_v14_apply, idx14_ix2, val_main_v7_apply, idx7_ix2, val_main_v6_apply, val_main_cst_apply,
    val_main_v13_apply, val_main_v12_apply, val_main_cst_1_apply, val_main_v11_apply,
    val_main_v17_apply, idx17_ix2, val_main_v16_apply, idx16_ix2, val_main_v9_apply, val_main_cst_0_apply]
  simp only [val_main_v5_apply, val_main_v8_apply, val_main_v10_apply, idx6_ix1, idx9_ix1, lidx11_ix2, ridx11_ix2, idx10_ix2,
    Ideal.mulf_def, Ideal.subf_def, Ideal.addf_def, Ideal.ofBits_def, Ideal.ofBits_zero_f32, zero_add]
  rfl

/-! ## The row maximum -/

/-- The reduced index `n` with code `k` put back is (n, k). -/
private theorem lift_ix2 (h : S262144x256.Reduces [1] S262144) (n : Fin 262144) (k : Fin (S262144x256.size 1)) :
    h.lift (ix1 n) k = ix2 n (⟨k.val, k.isLt⟩ : Fin 256) := by
  funext c; apply Fin.ext
  match c with
  | ⟨0, _⟩ => rfl
  | ⟨1, _⟩ => rfl

/-- The reference's row maximum at patch row `n`. -/
theorem rowMax_apply (x0 : (⟨S64x1x512x512, .f32⟩ : BufTy).Contents (Elt Ideal)) (x1 : (⟨S256x8x8, .f32⟩ : BufTy).Contents (Elt Ideal))
    (n : Fin 262144) :
    val_main_v23 (F := Ideal) x0 x1 (ix1 n)
      = VQ.rowMax (VQ.row (val_main_v3 (F := Ideal) x0) n) (VQ.mat (val_main_v4 (F := Ideal) x1)) := by
  have h : S262144x256.Reduces [1] S262144 := by decide
  have e := Host.reduce_eq_fold_single (α := Ideal .f32) (FloatOps.maximumf (F := Ideal) (φ := .f32))
    (val_main_v20 (F := Ideal) x0 x1 : S262144x256.Idx → Ideal .f32) (val_main_cst_3 (F := Ideal) : S_.Idx → Ideal .f32)
    reducesTo_S262144x256_S262144_d1 h h_S_ (ix1 n)
  have hf : (val_main_v20 (F := Ideal) x0 x1 ∘ h.lift (ix1 n))
      = VQ.logit (VQ.row (val_main_v3 (F := Ideal) x0) n) (VQ.mat (val_main_v4 (F := Ideal) x1)) :=
    funext fun k => (congrArg (val_main_v20 (F := Ideal) x0 x1) (lift_ix2 h n k)).trans (logit_apply x0 x1 n _)
  rw [hf, val_main_cst_3_apply] at e
  rw [val_main_v23_apply, val_main_v22_apply, val_main_cst_4_apply]
  unfold val_main_v21
  exact (congrArg (FloatOps.maximumf (FloatOps.ofBits (F := Ideal) FTy.f32 0xFF800000#32)) e).trans rfl

/-! ## The shifted exponentials, their total, the weights -/

private theorem idx25_ix2 (n : Fin 262144) (k : Fin 256) : idx_main_v25 (ix2 n k) = ix2 n (0 : Fin 1) :=
  funext fun a => Fin.ext (by match a with | ⟨0, _⟩ => rfl | ⟨1, _⟩ => rfl)

private theorem idx24_ix2 (n : Fin 262144) (z : Fin 1) : idx_main_v24 (ix2 n z) = ix1 n :=
  funext fun a => Fin.ext (by match a with | ⟨0, _⟩ => rfl)

private theorem idx30_ix2 (n : Fin 262144) (k : Fin 256) : idx_main_v30 (ix2 n k) = ix2 n (0 : Fin 1) :=
  funext fun a => Fin.ext (by match a with | ⟨0, _⟩ => rfl | ⟨1, _⟩ => rfl)

private theorem idx29_ix2 (n : Fin 262144) (z : Fin 1) : idx_main_v29 (ix2 n z) = ix1 n :=
  funext fun a => Fin.ext (by match a with | ⟨0, _⟩ => rfl)

private theorem idx28_ix1 (n : Fin 262144) (k : Fin 256) : idx_main_v28 (ix1 n) k = ix2 n k :=
  funext fun a => Fin.ext (by match a with | ⟨0, _⟩ => rfl | ⟨1, _⟩ => rfl)

/-- The reference's shifted exponential at patch row `n` and code `k`. -/
theorem ex_apply (x0 : (⟨S64x1x512x512, .f32⟩ : BufTy).Contents (Elt Ideal)) (x1 : (⟨S256x8x8, .f32⟩ : BufTy).Contents (Elt Ideal))
    (n : Fin 262144) (k : Fin 256) :
    val_main_v27 (F := Ideal) x0 x1 (ix2 n k)
      = VQ.ex (VQ.row (val_main_v3 (F := Ideal) x0) n) (VQ.mat (val_main_v4 (F := Ideal) x1)) k := by
  rw [val_main_v27_apply, val_main_v26_apply, logit_apply, val_main_v25_apply, idx25_ix2, val_main_v24_apply, idx24_ix2,
    rowMax_apply]
  rfl

/-- The reference's total of the shifted exponentials at patch row `n`. -/
theorem exSum_apply (x0 : (⟨S64x1x512x512, .f32⟩ : BufTy).Contents (Elt Ideal)) (x1 : (⟨S256x8x8, .f32⟩ : BufTy).Contents (Elt Ideal))
    (n : Fin 262144) :
    val_main_v28 (F := Ideal) x0 x1 (ix1 n)
      = ∑ k : Fin 256, VQ.ex (VQ.row (val_main_v3 (F := Ideal) x0) n) (VQ.mat (val_main_v4 (F := Ideal) x1)) k := by
  rw [val_main_v28_apply, val_main_cst_5_apply]
  simp only [idx28_ix1, ex_apply, Ideal.ofBits_def, Ideal.ofBits_zero_f32, zero_add]

/-- The reference's softmax weights at patch row `n` and code `k`. -/
theorem wgt_apply (x0 : (⟨S64x1x512x512, .f32⟩ : BufTy).Contents (Elt Ideal)) (x1 : (⟨S256x8x8, .f32⟩ : BufTy).Contents (Elt Ideal))
    (n : Fin 262144) (k : Fin 256) :
    val_main_v31 (F := Ideal) x0 x1 (ix2 n k)
      = VQ.wgt (VQ.row (val_main_v3 (F := Ideal) x0) n) (VQ.mat (val_main_v4 (F := Ideal) x1)) k := by
  rw [val_main_v31_apply, ex_apply, val_main_v30_apply, idx30_ix2, val_main_v29_apply, idx29_ix2, exSum_apply]
  rfl

private theorem lidx32_ix2 (n : Fin 262144) (l : Fin 64) (k : Fin 256) : lidx_main_v32 (ix2 n l) k = ix2 n k :=
  funext fun a => Fin.ext (by match a with | ⟨0, _⟩ => rfl | ⟨1, _⟩ => rfl)

private theorem ridx32_ix2 (n : Fin 262144) (l : Fin 64) (k : Fin 256) : ridx_main_v32 (ix2 n l) k = ix2 k l :=
  funext fun a => Fin.ext (by match a with | ⟨0, _⟩ => rfl | ⟨1, _⟩ => rfl)

/-- The reference's reconstruction at patch row `n` and lane `l`. -/
theorem recon_apply (x0 : (⟨S64x1x512x512, .f32⟩ : BufTy).Contents (Elt Ideal)) (x1 : (⟨S256x8x8, .f32⟩ : BufTy).Contents (Elt Ideal))
    (n : Fin 262144) (l : Fin 64) :
    val_main_v32 (F := Ideal) x0 x1 (ix2 n l)
      = VQ.recon (VQ.row (val_main_v3 (F := Ideal) x0) n) (VQ.mat (val_main_v4 (F := Ideal) x1)) l := by
  rw [val_main_v32_apply]
  simp only [lidx32_ix2, ridx32_ix2, wgt_apply]
  rfl

/-- The reference's penalty terms of patch row `n`, summed over the codes. -/
theorem pen_apply (x0 : (⟨S64x1x512x512, .f32⟩ : BufTy).Contents (Elt Ideal)) (x1 : (⟨S256x8x8, .f32⟩ : BufTy).Contents (Elt Ideal))
    (n : Fin 262144) :
    ∑ k : Fin 256, val_main_v39 (F := Ideal) x0 x1 (ix2 n k)
      = VQ.pen (VQ.row (val_main_v3 (F := Ideal) x0) n) (VQ.mat (val_main_v4 (F := Ideal) x1)) := by
  simp only [val_main_v39_apply, val_main_v38_apply, val_main_v37_apply, val_main_cst_6_apply, wgt_apply,
    Ideal.minimumf_def, Ideal.subf_def, Ideal.ofBits_def]
  rfl

/-- The reference's penalty: the total over all patch rows, divided by 2²⁶ and multiplied by 256. -/
theorem penalty_apply (x0 : (⟨S64x1x512x512, .f32⟩ : BufTy).Contents (Elt Ideal)) (x1 : (⟨S256x8x8, .f32⟩ : BufTy).Contents (Elt Ideal))
    (j : S_.Idx) :
    val_main_v42 (F := Ideal) x0 x1 j
      = Ideal.div (∑ n : Fin 262144, VQ.pen (VQ.row (val_main_v3 (F := Ideal) x0) n) (VQ.mat (val_main_v4 (F := Ideal) x1)))
          (Ideal.ofBits .f32 0x4C800000#32) * (Ideal.ofBits .f32 0x43800000#32 : EReal) := by
  rw [val_main_v42_apply, val_main_v41_apply, val_main_v40_apply, val_main_cst_7_apply, val_main_cst_8_apply,
    val_main_cst_9_apply, ValueIdx.sum_idx2]
  simp only [Ideal.ofBits_def, Ideal.ofBits_zero_f32, zero_add, Ideal.mulf_def, Ideal.hostDivf_def]
  exact congrArg (fun s : EReal => Ideal.div s (Ideal.ofBits .f32 0x4C800000#32) * (Ideal.ofBits .f32 0x43800000#32 : EReal))
    (Finset.sum_congr rfl fun n _ => pen_apply x0 x1 n)

/-- The reference's image result is the fold of its reconstruction. -/
theorem v36_eq_fold (x0 : (⟨S64x1x512x512, .f32⟩ : BufTy).Contents (Elt Ideal)) (x1 : (⟨S256x8x8, .f32⟩ : BufTy).Contents (Elt Ideal)) :
    val_main_v36 (F := Ideal) x0 x1
      = VQ.foldImg (F := Ideal) shapeCasts_S262144x64_S64x4096x64 shapeCasts_S64x4096x64_S64x64x64x1x8x8
          transposes_S64x64x64x1x8x8_S64x1x64x8x64x8_0_3_1_4_2_5 shapeCasts_S64x1x64x8x64x8_S64x1x512x512 (val_main_v32 (F := Ideal) x0 x1) := by
  unfold val_main_v36 val_main_v35 val_main_v34 val_main_v33 VQ.foldImg
  rfl

/-- The reference's patch rows are the unfolded images. -/
theorem v3_eq_unfold (x0 : (⟨S64x1x512x512, .f32⟩ : BufTy).Contents (Elt Ideal)) :
    val_main_v3 (F := Ideal) x0
      = VQ.unfoldImg (F := Ideal) shapeCasts_S64x1x512x512_S64x1x64x8x64x8 transposes_S64x1x64x8x64x8_S64x64x64x1x8x8_0_2_4_1_3_5
          shapeCasts_S64x64x64x1x8x8_S64x4096x64 shapeCasts_S64x4096x64_S262144x64 x0 := by
  unfold val_main_v3 val_main_v2 val_main_v1 val_main_v0 VQ.unfoldImg
  rfl

/-- The reference's code rows are the reshaped codebook. -/
theorem v4_eq (x1 : (⟨S256x8x8, .f32⟩ : BufTy).Contents (Elt Ideal)) :
    val_main_v4 (F := Ideal) x1 = shapeCast S256x64 x1 shapeCasts_S256x8x8_S256x64 := by
  unfold val_main_v4
  rfl

end Cert.VQ.RefRead

end
-- ==== Proof.Bridge.lean ====
/-
  The two programs meet.

  Kernel: its image result is the fold of the reconstruction array, which holds, at patch row n and lane l, the
  reconstruction of row n of the unfolded argument images against the reshaped codebook; its penalty result is the sum
  over the 256 blocks of the blocks' penalty sums, over 262144. Reference: its image result is the fold of its
  reconstruction stage, the same function of the same rows; its penalty is the sum over all rows, over 2²⁶, times 256.
  The sums regroup and the scalings agree on every extended real, so both results are the same functions of the
  arguments.
-/
import proofs.«134466_j37005438222627_1_alg».proof.Proof.Spec
import proofs.«134466_j37005438222627_1_alg».proof.Proof.Layout
import proofs.«134466_j37005438222627_1_alg».proof.Proof.Arith
import proofs.«134466_j37005438222627_1_alg».proof.Proof.KBlocks
import proofs.«134466_j37005438222627_1_alg».proof.Proof.KRun
import proofs.«134466_j37005438222627_1_alg».proof.Proof.RefRead

open scoped BigOperators

noncomputable section

namespace Cert.VQ

open Idealize.ShloMosaic Idealize.ShloMosaic.TcCoe Idealize.ShloMosaic.ValueIdx Idealize.SL.Sem

/-- The reconstruction of every patch row of `P` against the code rows `C`, as an array. -/
def reconArr (P : FVec Ideal SNL .f32) (C : FVec Ideal (⟨2, ![256, 64]⟩ : Shape) .f32) : FVec Ideal SNL .f32 :=
  fun i => recon (row P ⟨(i 0).val, (i 0).isLt⟩) (mat C) ⟨(i 1).val, (i 1).isLt⟩

/-- The total penalty of all patch rows over the literal 262144, as a rank-0 array. -/
def penArr (P : FVec Ideal SNL .f32) (C : FVec Ideal (⟨2, ![256, 64]⟩ : Shape) .f32) : FVec Ideal SNil .f32 :=
  fun _ => Ideal.div (∑ n : Fin 262144, pen (row P n) (mat C)) (Ideal.ofBits .f32 0x48800000#32)

theorem ix2_coords (i : SNL.Idx) : ix2 (⟨(i 0).val, (i 0).isLt⟩ : Fin 262144) (⟨(i 1).val, (i 1).isLt⟩ : Fin 64) = i :=
  funext fun a => Fin.ext (by match a with | ⟨0, _⟩ => rfl | ⟨1, _⟩ => rfl)

/-- A penalty array whose tile `t` holds, at its first entry, the sum of the penalties of the tile's 1024 rows goes
    through the tail to `penArr`. -/
theorem penTail_of_blocks (h1 : SPen.Slices ![0, 0, 0] SPen1) (h2 : SPen1.ShapeCasts SVec) (h3 : SVec.ReducesTo [0] SNil) (h4 : 0 < SNil.numel)
    (hN : (262144 : ℕ) = 256 * 1024) (P : FVec Ideal SNL .f32) (C : FVec Ideal (⟨2, ![256, 64]⟩ : Shape) .f32) (A : FVec Ideal SPen .f32)
    (hA : ∀ t : Fin 256, A (ix3 t (0 : Fin 8) (0 : Fin 128))
      = ∑ r : Fin 1024, pen (row P (Cert.Lib.BlockSum.blockRow (N := 262144) (a := 256) (b := 1024) hN t r)) (mat C)) :
    penTail (F := Ideal) h1 h2 h3 h4 A = penArr P C := by
  funext j
  rw [penTail_apply]
  unfold penArr
  refine congrArg (fun s : EReal => Ideal.div s (Ideal.ofBits .f32 0x48800000#32)) ?_
  exact (Finset.sum_congr rfl fun t _ => hA t).trans (sum_rows_blocks hN (fun n => pen (row P n) (mat C)))

section Kernel

open Cert.KernelIdeal Cert.KernelIdeal.Gen

variable (m : (ℓ : Loc nD τ sig) → Buf (Elt Ideal) ℓ)

/-- The kernel's reconstruction array is `reconArr` of the rows the region finds. -/
theorem kernel_arr2 (c : Dev nD) :
    (dats m 0 c).arrAt 2 cfg0.N = reconArr (V m c main_v3) (V m c main_v4) := by
  funext i
  have h := KBlocks.arr2_apply m c ⟨(i 0).val, (i 0).isLt⟩ ⟨(i 1).val, (i 1).isLt⟩
  rw [ix2_coords i] at h
  exact h

/-- The kernel's penalty array, through the tail, is `penArr` of the rows the region finds. -/
theorem kernel_pen (c : Dev nD) (h1 : SPen.Slices ![0, 0, 0] SPen1) (h2 : SPen1.ShapeCasts SVec) (h3 : SVec.ReducesTo [0] SNil) (h4 : 0 < SNil.numel) :
    penTail (F := Ideal) h1 h2 h3 h4 ((dats m 0 c).arrAt 3 cfg0.N) = penArr (V m c main_v3) (V m c main_v4) := by
  exact penTail_of_blocks h1 h2 h3 h4 rfl (V m c main_v3) (V m c main_v4) _ (fun t => KBlocks.arr3_apply m c t 0 0)

end Kernel

section Reference

open Cert.ReferenceIdeal Cert.ReferenceIdeal.Gen Cert.ReferenceIdeal.Read

/-- The reference's reconstruction stage is `reconArr` of its rows. -/
theorem ref_recon (x0 : (⟨S64x1x512x512, .f32⟩ : BufTy).Contents (Elt Ideal)) (x1 : (⟨S256x8x8, .f32⟩ : BufTy).Contents (Elt Ideal)) :
    val_main_v32 (F := Ideal) x0 x1 = reconArr (val_main_v3 (F := Ideal) x0) (val_main_v4 (F := Ideal) x1) := by
  funext i
  have h := RefRead.recon_apply x0 x1 ⟨(i 0).val, (i 0).isLt⟩ ⟨(i 1).val, (i 1).isLt⟩
  rw [ix2_coords i] at h
  exact h

/-- The reference's penalty is `penArr` of its rows. -/
theorem ref_pen (x0 : (⟨S64x1x512x512, .f32⟩ : BufTy).Contents (Elt Ideal)) (x1 : (⟨S256x8x8, .f32⟩ : BufTy).Contents (Elt Ideal)) :
    val_main_v42 (F := Ideal) x0 x1 = penArr (val_main_v3 (F := Ideal) x0) (val_main_v4 (F := Ideal) x1) := by
  funext j
  rw [RefRead.penalty_apply x0 x1 j, scale_eq]
  rfl

end Reference

end Cert.VQ

end
-- ==== Proof.lean ====
/-
  Equivalence over the extended reals of a vector-quantisation blend kernel and its jnp reference.

  Both programs cut 64 images of 512×512 into 262144 tiles of 8×8, one tile a row of 64 entries, and compare each
  row with 256 code rows: the softmax over the codes of -35 times the squared distance (in its expanded form
  |x|² - 2⟨x,c⟩ + |c|²) gives the row's weights; the row is rebuilt as the weighted sum of the code rows and the rows
  are laid back into images; and the penalty is the total of min(w, 1 - w) over all rows and codes, scaled. The kernel
  works on 256 blocks of 1024 rows, the reference on all rows at once; the kernel scales its total by 1/262144, the
  reference by 1/2²⁶ and then by 256. Row by row the two apply the same exact operations in the same order, the
  blocks tile the arrays, the total regroups block by block, and the two scalings agree on every extended real. No
  finiteness of the inputs is used. The idealization rewrote nothing, so there is nothing to preserve.
-/
import proofs.«134466_j37005438222627_1_alg».proof.Defs
import proofs.«134466_j37005438222627_1_alg».proof.Proof.Gen.Kernel
import proofs.«134466_j37005438222627_1_alg».proof.Proof.Gen.Kernel.Skeleton
import proofs.«134466_j37005438222627_1_alg».proof.Proof.Gen.Kernel.Launch
import proofs.«134466_j37005438222627_1_alg».proof.Proof.Gen.Kernel.Points
import proofs.«134466_j37005438222627_1_alg».proof.Proof.Gen.Kernel.Frame
import proofs.«134466_j37005438222627_1_alg».proof.Proof.Gen.KernelIdeal
import proofs.«134466_j37005438222627_1_alg».proof.Proof.Gen.KernelIdeal.Skeleton
import proofs.«134466_j37005438222627_1_alg».proof.Proof.Gen.KernelIdeal.Launch
import proofs.«134466_j37005438222627_1_alg».proof.Proof.Gen.KernelIdeal.Points
import proofs.«134466_j37005438222627_1_alg».proof.Proof.Gen.KernelIdeal.Frame
import proofs.«134466_j37005438222627_1_alg».proof.Proof.Gen.ReferenceIdeal
import proofs.«134466_j37005438222627_1_alg».proof.Proof.Gen.Pre_finite_inputs
import proofs.«134466_j37005438222627_1_alg».proof.Proof.Gen.ReferenceIdeal.Run
import proofs.«134466_j37005438222627_1_alg».proof.Proof.Gen.ReferenceIdeal.Read
import proofs.«134466_j37005438222627_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does the kernel program read at the ideal values. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the images at the fold of the row-by-row reconstruction of the unfolded argument images
    against the reshaped codebook, and the penalty at the total of the rows' penalties over 262144. -/
theorem algebraic : Cert.algebraic_KernelIdeal_ReferenceIdeal := by
  intro m ρ m' ρ' _ hagree
  refine ⟨fun c => VQ.foldImg (F := Ideal) Cert.KernelIdeal.Gen.shapeCasts_S262144x64_S64x4096x64
      Cert.KernelIdeal.Gen.shapeCasts_S64x4096x64_S64x64x64x1x8x8
      Cert.KernelIdeal.Gen.transposes_S64x64x64x1x8x8_S64x1x64x8x64x8_0_3_1_4_2_5
      Cert.KernelIdeal.Gen.shapeCasts_S64x1x64x8x64x8_S64x1x512x512
      (VQ.reconArr
        (VQ.unfoldImg (F := Ideal) Cert.KernelIdeal.Gen.shapeCasts_S64x1x512x512_S64x1x64x8x64x8
          Cert.KernelIdeal.Gen.transposes_S64x1x64x8x64x8_S64x64x64x1x8x8_0_2_4_1_3_5
          Cert.KernelIdeal.Gen.shapeCasts_S64x64x64x1x8x8_S64x4096x64 Cert.KernelIdeal.Gen.shapeCasts_S64x4096x64_S262144x64
          (m ((c.tc : Thread Cert.KernelIdeal.nD Cert.KernelIdeal.τ).loc Cert.KernelIdeal.main_arg0)))
        (shapeCast Cert.KernelIdeal.S256x64 (m ((c.tc : Thread Cert.KernelIdeal.nD Cert.KernelIdeal.τ).loc Cert.KernelIdeal.main_arg1))
          Cert.KernelIdeal.Gen.shapeCasts_S256x8x8_S256x64)),
    fun c => VQ.penArr
        (VQ.unfoldImg (F := Ideal) Cert.KernelIdeal.Gen.shapeCasts_S64x1x512x512_S64x1x64x8x64x8
          Cert.KernelIdeal.Gen.transposes_S64x1x64x8x64x8_S64x64x64x1x8x8_0_2_4_1_3_5
          Cert.KernelIdeal.Gen.shapeCasts_S64x64x64x1x8x8_S64x4096x64 Cert.KernelIdeal.Gen.shapeCasts_S64x4096x64_S262144x64
          (m ((c.tc : Thread Cert.KernelIdeal.nD Cert.KernelIdeal.τ).loc Cert.KernelIdeal.main_arg0)))
        (shapeCast Cert.KernelIdeal.S256x64 (m ((c.tc : Thread Cert.KernelIdeal.nD Cert.KernelIdeal.τ).loc Cert.KernelIdeal.main_arg1))
          Cert.KernelIdeal.Gen.shapeCasts_S256x8x8_S256x64), ?_, ?_⟩
  · refine (θ_run Cert.KernelIdeal.defs _ _).mono (fun r h c => ⟨?_, ?_, (h c).2.2.1, (h c).2.2.2⟩) (VQ.KRun.run_values m ρ)
    · rw [(h c).1, VQ.kernel_arr2, VQ.KRun.V_main_v3, VQ.KRun.V_main_v4]
    · rw [(h c).2.1, VQ.kernel_pen, VQ.KRun.V_main_v3, VQ.KRun.V_main_v4]
  · refine (θ_run Cert.ReferenceIdeal.defs _ _).mono (fun r h c => ⟨?_, ?_, (h c).2.2.1, (h c).2.2.2⟩)
      (Cert.ReferenceIdeal.Value.run (F := Ideal) m' ρ')
    · rw [(h c).1, Cert.ReferenceIdeal.Read.val_main_v36_eq, VQ.RefRead.v36_eq_fold, VQ.ref_recon, VQ.RefRead.v3_eq_unfold,
        VQ.RefRead.v4_eq, (hagree c).1, (hagree c).2]
    · rw [(h c).2.1, Cert.ReferenceIdeal.Read.val_main_v42_eq, VQ.ref_pen, VQ.RefRead.v3_eq_unfold, VQ.RefRead.v4_eq,
        (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
